-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x200x2 : Shape := ⟨3, ![262144, 200, 2]⟩
abbrev S262144 : Shape := ⟨1, ![262144]⟩
abbrev S262144x2 : Shape := ⟨2, ![262144, 2]⟩
abbrev S_ : Shape := ⟨0, ![]⟩

class Facts : Prop where
  bcast_S_S262144x200x2 : S_.BroadcastsInDim S262144x200x2 (![] : Fin 0 → Fin S262144x200x2.rank)
  reducesTo_S262144x200x2_S_d0_1_2 : S262144x200x2.ReducesTo [0, 1, 2] S_
  h_S_ : 0 < S_.numel
  bcast_S_S262144x2 : S_.BroadcastsInDim S262144x2 (![] : Fin 0 → Fin S262144x2.rank)
  reducesTo_S262144x2_S_d0_1 : S262144x2.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x200x2 .f32) (main_arg1 : IVec S262144 32) (main_arg2 : FVec F S262144x2 .f32) : IVec S_ 1 :=
  let main_v0 : FVec F S262144x200x2 .f32 := Host.absf main_arg0
  let main_cst : FVec F S_ .f32 := constant S_ .f32 0x7F800000#32
  let main_v1 : FVec F S262144x200x2 .f32 := broadcastInDim S262144x200x2 ![] bcast_S_S262144x200x2 main_cst
  let main_v2 : IVec S262144x200x2 1 := cmpf .olt main_v0 main_v1
  let main_c : IVec S_ 1 := constantI S_ 1 1#1
  let main_v3 : IVec S_ 1 := (fun x v => Host.reduce IntOp.andi x v reducesTo_S262144x200x2_S_d0_1_2 h_S_) main_v2 main_c
  let main_v4 : FVec F S262144x2 .f32 := Host.absf main_arg2
  let main_cst_0 : FVec F S_ .f32 := constant S_ .f32 0x7F800000#32
  let main_v5 : FVec F S262144x2 .f32 := broadcastInDim S262144x2 ![] bcast_S_S262144x2 main_cst_0
  let main_v6 : IVec S262144x2 1 := cmpf .olt main_v4 main_v5
  let main_c_1 : IVec S_ 1 := constantI S_ 1 1#1
  let main_v7 : IVec S_ 1 := (fun x v => Host.reduce IntOp.andi x v reducesTo_S262144x2_S_d0_1 h_S_) main_v6 main_c_1
  let main_v8 : IVec S_ 1 := andi main_v3 main_v7
  let main_c_2 : IVec S_ 32 := constantI S_ 32 1#32
  let main_v9 : IVec S262144 32 := broadcastInDim S262144 ![] bcast_S_S262144 main_c_2
  let main_v10 : IVec S262144 1 := cmpi .sge main_arg1 main_v9
  let main_c_3 : IVec S_ 32 := constantI S_ 32 200#32
  let main_v11 : IVec S262144 32 := broadcastInDim S262144 ![] bcast_S_S262144 main_c_3
  let main_v12 : IVec S262144 1 := cmpi .sle main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x200x2 : Shape := ⟨3, ![262144, 200, 2]⟩
abbrev S262144 : Shape := ⟨1, ![262144]⟩
abbrev S262144x2 : Shape := ⟨2, ![262144, 2]⟩
abbrev S262144x400 : Shape := ⟨2, ![262144, 400]⟩
abbrev S_ : Shape := ⟨0, ![]⟩
abbrev S262144x1 : Shape := ⟨2, ![262144, 1]⟩
abbrev S2x1x128 : Shape := ⟨3, ![2, 1, 128]⟩
abbrev S4096x400 : Shape := ⟨2, ![4096, 400]⟩
abbrev S4096x1 : Shape := ⟨2, ![4096, 1]⟩
abbrev S4096x2 : Shape := ⟨2, ![4096, 2]⟩
abbrev S1x1x128 : Shape := ⟨3, ![1, 1, 128]⟩
abbrev S1x1 : Shape := ⟨2, ![1, 1]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 17
  | .vmem => 10
  | .smem => 0
  | _ => 0

abbrev bufTy : (tb : Table) → Fin (tcTables nBuf tb) → BufTy
  | .hbm, ⟨0, _⟩ => ⟨S262144x200x2, .f32⟩
  | .hbm, ⟨1, _⟩ => ⟨S262144, .i32⟩
  | .hbm, ⟨2, _⟩ => ⟨S262144x2, .f32⟩
  | .hbm, ⟨3, _⟩ => ⟨S262144x400, .f32⟩
  | .hbm, ⟨4, _⟩ => ⟨S_, .i32⟩
  | .hbm, ⟨5, _⟩ => ⟨S262144, .i32⟩
  | .hbm, ⟨6, _⟩ => ⟨S262144, .i32⟩
  | .hbm, ⟨7, _⟩ => ⟨S262144x1, .i32⟩
  | .hbm, ⟨8, _⟩ => ⟨S2x1x128, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4096x400, .f32⟩
  | .local _ .vmem, ⟨1, _⟩ => ⟨S4096x400, .f32⟩
  | .local _ .vmem, ⟨2, _⟩ => ⟨S4096x1, .i32⟩
  | .local _ .vmem, ⟨3, _⟩ => ⟨S4096x1, .i32⟩
  | .local _ .vmem, ⟨4, _⟩ => ⟨S4096x2, .f32⟩
  | .local _ .vmem, ⟨5, _⟩ => ⟨S4096x2, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S4096x400, .i32⟩
  | _, _ => ⟨S262144x200x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v66 : BitVec 1 := Scalar.cmpi .eq arg1 c31_i32
  let v67 : BitVec 32 := Scalar.extui v66
  let c0_i32_24 : BitVec 32 := 0#32
  let v68 : BitVec 1 := Scalar.cmpi .ne v67 c0_i32_24
  v68

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144x200x2_S262144x400 : S262144x200x2.ShapeCasts S262144x400
  bcast_S_S262144 : S_.BroadcastsInDim S262144 (![] : Fin 0 → Fin S262144.rank)
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S4096x400_d1_w32 : S4096x400.Iotas .tc 32 [1]
  inb_S4096x400_S4096x400_0_0 : ∀ a, (![0, 0] : Fin 2 → Nat) a + S4096x400.size a ≤ S4096x400.size a
  h_S4096x400 : 0 < S4096x400.numel
  shapeCasts_S4096x400_S4096x400 : S4096x400.ShapeCasts S4096x400
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x400 : S4096x1.Broadcasts S4096x400
  reduces_S4096x400_S4096 : S4096x400.Reduces [1] S4096
  shapeCasts_S4096_S4096x1 : S4096.ShapeCasts S4096x1
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  slices_S4096x2_o0_1_S4096x1 : S4096x2.Slices ![0, 1] S4096x1
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x400.size a ≤ S262144x400.size a
  hwx0_0 : ∀ i : grid0.Coords, EltTy.bits .f32 = 32 ∨ (Rect.block (s := S262144x400) S4096x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S262144x2.size a
  hwx0_2 : ∀ i : grid0.Coords, EltTy.bits .f32 = 32 ∨ (Rect.block (s := S262144x2) S4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S4096x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x200x2 : Shape := ⟨3, ![262144, 200, 2]⟩
abbrev S262144 : Shape := ⟨1, ![262144]⟩
abbrev S262144x2 : Shape := ⟨2, ![262144, 2]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩
abbrev S262144x1 : Shape := ⟨2, ![262144, 1]⟩
abbrev S262144x1x2 : Shape := ⟨3, ![262144, 1, 2]⟩
abbrev S524288 : Shape := ⟨1, ![524288]⟩

abbrev nBuf : Space → Nat
  | .hbm => 51
  | .vmem => 0
  | .smem => 0
  | _ => 0

abbrev bufTy : (tb : Table) → Fin (tcTables nBuf tb) → BufTy
  | .hbm, ⟨0, _⟩ => ⟨S262144x200x2, .f32⟩
  | .hbm, ⟨1, _⟩ => ⟨S262144, .i32⟩
  | .hbm, ⟨2, _⟩ => ⟨S262144x2, .f32⟩
  | .hbm, ⟨3, _⟩ => ⟨S_, .i32⟩
  | .hbm, ⟨4, _⟩ => ⟨S262144, .i32⟩
  | .hbm, ⟨5, _⟩ => ⟨S262144, .i32⟩
  | .hbm, ⟨6, _⟩ => ⟨S262144x1x1, .i32⟩
  | .hbm, ⟨7, _⟩ => ⟨S_, .i32⟩
  | .hbm, ⟨8, _⟩ => ⟨S262144x1x1, .i32⟩
  | .hbm, ⟨9, _⟩ => ⟨S262144x1x1, .i1⟩
  | .hbm, ⟨10, _⟩ => ⟨S_, .i32⟩
  | .hbm, ⟨11, _⟩ => ⟨S262144x1x1, .i32⟩
  | .hbm, ⟨12, _⟩ => ⟨S262144x1x1, .i32⟩
  | .hbm, ⟨13, _⟩ => ⟨S262144x1x1, .i32⟩
  | .hbm, ⟨14, _⟩ => ⟨S1, .i32⟩
  | .hbm, ⟨15, _⟩ => ⟨S_, .i32⟩
  | .hbm, ⟨16, _⟩ => ⟨S262144x1x1, .i32⟩
  | .hbm, ⟨17, _⟩ => ⟨S262144x1x1, .i1⟩
  | .hbm, ⟨18, _⟩ => ⟨S1x1x1, .i32⟩
  | .hbm, ⟨19, _⟩ => ⟨S262144x1x1, .i32⟩
  | .hbm, ⟨20, _⟩ => ⟨S262144x1x1, .i1⟩
  | .hbm, ⟨21, _⟩ => ⟨S262144x1x1, .i1⟩
  | .hbm, ⟨22, _⟩ => ⟨S_, .i1⟩
  | .hbm, ⟨23, _⟩ => ⟨S262144x1, .i1⟩
  | .hbm, ⟨24, _⟩ => ⟨S262144x1x2, .f32⟩
  | .hbm, ⟨25, _⟩ => ⟨S262144x1x2, .i1⟩
  | .hbm, ⟨26, _⟩ => ⟨S_, .f32⟩
  | .hbm, ⟨27, _⟩ => ⟨S262144x1x2, .f32⟩
  | .hbm, ⟨28, _⟩ => ⟨S262144x1x2, .f32⟩
  | .hbm, ⟨29, _⟩ => ⟨S262144x2, .f32⟩
  | .hbm, ⟨30, _⟩ => ⟨S524288, .f32⟩
  | .hbm, ⟨31, _⟩ => ⟨S524288, .f32⟩
  | .hbm, ⟨32, _⟩ => ⟨S524288, .f32⟩
  | .hbm, ⟨33, _⟩ => ⟨S524288, .f32⟩
  | .hbm, ⟨34, _⟩ => ⟨S_, .f32⟩
  | .hbm, ⟨35, _⟩ => ⟨S524288, .f32⟩
  | .hbm, ⟨36, _⟩ => ⟨S524288, .i1⟩
  | .hbm, ⟨37, _⟩ => ⟨S_, .f32⟩
  | .hbm, ⟨38, _⟩ => ⟨S524288, .f32⟩
  | .hbm, ⟨39, _⟩ => ⟨S524288, .f32⟩
  | .hbm, ⟨40, _⟩ => ⟨S524288, .f32⟩
  | .hbm, ⟨41, _⟩ => ⟨S_, .f32⟩
  | .hbm, ⟨42, _⟩ => ⟨S524288, .f32⟩
  | .hbm, ⟨43, _⟩ => ⟨S524288, .f32⟩
  | .hbm, ⟨44, _⟩ => ⟨S524288, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S262144x200x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x2_0_1 : S262144x1.BroadcastsInDim S262144x1x2 (![0, 1] : Fin 2 → Fin S262144x1x2.rank)
  bcast_S_S262144x1x2 : S_.BroadcastsInDim S262144x1x2 (![] : Fin 0 → Fin S262144x1x2.rank)
  shapeCasts_S262144x1x2_S262144x2 : S262144x1x2.ShapeCasts S262144x2
  shapeCasts_S262144x2_S524288 : S262144x2.ShapeCasts S524288
  bcast_S_S524288 : S_.BroadcastsInDim S524288 (![] : Fin 0 → Fin S524288.rank)
  reducesTo_S524288_S_d0 : S524288.ReducesTo [0] S_
  gather_S262144x200x2_S262144x1x1_S262144x1x2_2_1_0_0_1_2_112_wf : GatherDims.WF S262144x200x2 S262144x1x1 S262144x1x2 [2] [1] [0] [1] [0] 2 ![1, 1, 2]

variable [Facts₀]

def gather_S262144x200x2_S262144x1x1_S262144x1x2_2_1_0_0_1_2_112 : GatherDims S262144x200x2 S262144x1x1 S262144x1x2 where
  offsetDims := [2]
  collapsedSliceDims := [1]
  operandBatchingDims := [0]
  startIndicesBatchingDims := [0]
  startIndexMap := [1]
  indexVectorDim := 2
  sliceSizes := ![1, 1, 2]
  wf := gather_S262144x200x2_S262144x1x1_S262144x1x2_2_1_0_0_1_2_112_wf

class Facts : Prop extends Facts₀ where

variable [Facts]
-- ==== Proof.KUpd.lean ====
/-
  One grid point's update of the accumulator, as a function of what the point loads: its three input blocks
  (4096 rows of predictions viewed [4096, 400], of 0-based class words, of targets), the table of column
  indices, and the accumulator.  It is the payload the body stores back into the accumulator.
-/
import proofs.«415864_j14181982011577_3_alg».proof.Proof.Gen.KernelIdeal.Skeleton

noncomputable section

open Idealize.ShloMosaic

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- From the point's three input blocks, the column-index table io and the accumulator acc: the accumulator plus the
    block's two loss sums. -/
def upd (x0 : Vec F S4096x400 .f32) (x1 : Vec F S4096x1 .i32) (x2 : Vec F S4096x2 .f32) (io : Vec F S4096x400 .i32)
    (acc : Vec F S1x1 .f32) : Vec F S1x1 .f32 :=
  k0_pay1 (k0_pay7 x1 io x0 x2) (k0_pay8 x1 io x0 x2) (k0_pay9 x1 io x0 x2) (k0_pay10 x1 io x0 x2) (k0_pay11 x1 io x0 x2)
    (Scalar.ofBits .f32 0x3F000000#32) acc

end Cert.KernelIdeal.Acc

end
-- ==== Proof.KPieces.lean ====
/-
  What each of the body's three control cases leaves in the accumulator, in the column-index table and in the
  output block, read off the pieces the frame's runs found: the stores' payloads over the point's loads.
-/
import proofs.«415864_j14181982011577_3_alg».proof.Proof.Gen.KernelIdeal.Frame
import proofs.«415864_j14181982011577_3_alg».proof.Proof.KUpd
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- A point that is neither first nor last of its core's 32: the accumulator found at xs0, the table at xs1. -/
theorem sout_B_0 (c : Dev nD) (i : grid0.Coords) (arg2 : Memref sig .tc .vmem S4096x400 .f32) (harg2 : arg2.IsWhole) (arg3 : Memref sig .tc .vmem S4096x1 .i32) (harg3 : arg3.IsWhole) (arg4 : Memref sig .tc .vmem S4096x2 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S4096x400 .i32) (harg7 : arg7.IsWhole) (hc0 : ¬cond0_0 i) (hc1 : ¬cond0_1 i)
    (x0 : Vec F S4096x400 .f32) (x1 : Vec F S4096x1 .i32) (x2 : Vec F S4096x2 .f32) (xs0 : Vec F S1x1 .f32) (xs1 : Vec F S4096x400 .i32) :
    sout0_B_0 c i arg2 harg2 arg3 harg3 arg4 harg4 arg5 harg5 arg6 harg6 arg7 harg7 hc0 hc1 x0 x1 x2 xs0 xs1 = upd x0 x1 x2 xs1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread,
    View.ld_unit_zero (S := S4096x400) hz2, View.ld_unit_zero (S := S4096x1) hz2, View.ld_unit_zero (S := S4096x2) hz2,
    View.ld_unit_zero (S := S1x1) hz2]
  rfl

/-- The last point of a core's 32: the accumulator as at any later point, -/
theorem sout_C_0 (c : Dev nD) (i : grid0.Coords) (arg2 : Memref sig .tc .vmem S4096x400 .f32) (harg2 : arg2.IsWhole) (arg3 : Memref sig .tc .vmem S4096x1 .i32) (harg3 : arg3.IsWhole) (arg4 : Memref sig .tc .vmem S4096x2 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S4096x400 .i32) (harg7 : arg7.IsWhole) (hc0 : ¬cond0_0 i) (hc1 : cond0_1 i)
    (x0 : Vec F S4096x400 .f32) (x1 : Vec F S4096x1 .i32) (x2 : Vec F S4096x2 .f32) (xs0 : Vec F S1x1 .f32) (xs1 : Vec F S4096x400 .i32) :
    sout0_C_0 c i arg2 harg2 arg3 harg3 arg4 harg4 arg5 harg5 arg6 harg6 arg7 harg7 hc0 hc1 x0 x1 x2 xs0 xs1 = upd x0 x1 x2 xs1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S4096x400) hz2, View.ld_unit_zero (S := S4096x1) hz2, View.ld_unit_zero (S := S4096x2) hz2,
    View.ld_unit_zero (S := S1x1) hz2]
  rfl

/-- and the output block gets the updated accumulator's one entry on all 128 lanes. -/
theorem out_C_3 (c : Dev nD) (i : grid0.Coords) (arg2 : Memref sig .tc .vmem S4096x400 .f32) (harg2 : arg2.IsWhole) (arg3 : Memref sig .tc .vmem S4096x1 .i32) (harg3 : arg3.IsWhole) (arg4 : Memref sig .tc .vmem S4096x2 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S4096x400 .i32) (harg7 : arg7.IsWhole) (hc0 : ¬cond0_0 i) (hc1 : cond0_1 i)
    (x0 : Vec F S4096x400 .f32) (x1 : Vec F S4096x1 .i32) (x2 : Vec F S4096x2 .f32) (xs0 : Vec F S1x1 .f32) (xs1 : Vec F S4096x400 .i32) :
    out0_C_3 c i arg2 harg2 arg3 harg3 arg4 harg4 arg5 harg5 arg6 harg6 arg7 harg7 hc0 hc1 x0 x1 x2 xs0 xs1 = k0_pay2 (upd x0 x1 x2 xs1 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3, View.readCov_unit_zero (S := S1x1) _ hz2]
  simp only [View.readAt_eq_ld, harg2.read_unread, harg3.read_unread, harg4.read_unread, harg6.read_unread, harg7.read_unread,
    View.ld_unit_zero (S := S4096x400) hz2, View.ld_unit_zero (S := S4096x1) hz2, View.ld_unit_zero (S := S4096x2) hz2,
    View.ld_unit_zero (S := S1x1) hz2]
  rfl

/-- The first point of a core's 32: the accumulator is reset to zero and the column-index table written before they
    are read, so the point leaves zero plus its block's sums, -/
theorem sout_A_0 (c : Dev nD) (i : grid0.Coords) (arg2 : Memref sig .tc .vmem S4096x400 .f32) (harg2 : arg2.IsWhole) (arg3 : Memref sig .tc .vmem S4096x1 .i32) (harg3 : arg3.IsWhole) (arg4 : Memref sig .tc .vmem S4096x2 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S4096x400 .i32) (harg7 : arg7.IsWhole) (hc0 : cond0_0 i) (hc1 : ¬cond0_1 i)
    (x0 : Vec F S4096x400 .f32) (x1 : Vec F S4096x1 .i32) (x2 : Vec F S4096x2 .f32) :
    sout0_A_0 c i arg2 harg2 arg3 harg3 arg4 harg4 arg5 harg5 arg6 harg6 arg7 harg7 hc0 hc1 x0 x1 x2 = upd x0 x1 x2 (k0_pay4) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz2]
  simp only [View.readCov_unit_zero (S := S4096x400) _ hz2, View.readCov_unit_zero (S := S1x1) _ hz2,
    View.readAt_eq_ld, harg2.read_unread, harg3.read_unread, harg4.read_unread,
    View.ld_unit_zero (S := S4096x400) hz2, View.ld_unit_zero (S := S4096x1) hz2, View.ld_unit_zero (S := S4096x2) hz2]
  rfl

/-- and the table of column indices. -/
theorem sout_A_1 (c : Dev nD) (i : grid0.Coords) (arg2 : Memref sig .tc .vmem S4096x400 .f32) (harg2 : arg2.IsWhole) (arg3 : Memref sig .tc .vmem S4096x1 .i32) (harg3 : arg3.IsWhole) (arg4 : Memref sig .tc .vmem S4096x2 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S4096x400 .i32) (harg7 : arg7.IsWhole) (hc0 : cond0_0 i) (hc1 : ¬cond0_1 i)
    (x0 : Vec F S4096x400 .f32) (x1 : Vec F S4096x1 .i32) (x2 : Vec F S4096x2 .f32) :
    sout0_A_1 c i arg2 harg2 arg3 harg3 arg4 harg4 arg5 harg5 arg6 harg6 arg7 harg7 hc0 hc1 x0 x1 x2 = k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  exact View.canon_unit_zero hz2 _ _

end Cert.KernelIdeal.Acc

end
-- ==== Proof.KInvariant.lean ====
/-
  What the kernel's two scratch buffers hold after each grid point, in closed recursive form.  The 64 points run
  as two stretches of 32 (one per accumulator).  The table of column indices is written at a stretch's first point
  and never changed, so after every point it is the iota.  The accumulator is reset to zero plus the first block's
  sums at a stretch's first point, and each later point adds its own block's sums to what the point before left.
  At a stretch's last point the output block receives the accumulator's entry on all its lanes.
-/
import proofs.«415864_j14181982011577_3_alg».proof.Proof.KPieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The three input blocks of point t, at their literal types. -/
abbrev xb0 (c : Dev nD) (t : Fin cfg0.N) : Vec F S4096x400 .f32 := iblk m c 0 t
abbrev xb1 (c : Dev nD) (t : Fin cfg0.N) : Vec F S4096x1 .i32 := iblk m c 1 t
abbrev xb2 (c : Dev nD) (t : Fin cfg0.N) : Vec F S4096x2 .f32 := iblk m c 2 t

/-- After every point the column-index table is the iota along the columns. -/
theorem tableAt (c : Dev nD) : ∀ (n : ℕ) (h : n < cfg0.N), (outsAt0 m c n h).2.2 = k0_pay4
  | 0, h => by
    have h0 : (⟨0, h⟩ : Fin cfg0.N).val % 32 = 0 := rfl
    have h1 : ¬(⟨0, h⟩ : Fin cfg0.N).val % 32 = 31 := by dsimp only; omega
    rw [outsAt0_A m c ⟨0, h⟩ h0 h1]
    dsimp only
    exact sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩)
  | n + 1, h => by
    by_cases h0 : (⟨n + 1, h⟩ : Fin cfg0.N).val % 32 = 0
    · have h1 : ¬(⟨n + 1, h⟩ : Fin cfg0.N).val % 32 = 31 := by dsimp only at h0 ⊢; omega
      rw [outsAt0_A m c ⟨n + 1, h⟩ h0 h1]
      dsimp only
      exact sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩)
    · by_cases h1 : (⟨n + 1, h⟩ : Fin cfg0.N).val % 32 = 31
      · rw [outsAt0_C m c ⟨n + 1, h⟩ h0 h1]
        dsimp only
        unfold sout0_C_1
        exact tableAt c n (Nat.lt_of_succ_lt h)
      · rw [outsAt0_B m c ⟨n + 1, h⟩ h0 h1]
        dsimp only
        unfold sout0_B_1
        exact tableAt c n (Nat.lt_of_succ_lt h)

/-- The accumulator after point n. -/
def accAfter (c : Dev nD) (n : ℕ) (h : n < cfg0.N) : Vec F S1x1 .f32 := (outsAt0 m c n h).2.1

/-- What a stretch's first point leaves: zero plus its block's sums. -/
def resetVal (c : Dev nD) (n : ℕ) (h : n < cfg0.N) : Vec F S1x1 .f32 :=
  upd (xb0 m c ⟨n, h⟩) (xb1 m c ⟨n, h⟩) (xb2 m c ⟨n, h⟩) k0_pay4 (k0_pay3 (F := F))

/-- What a later point leaves over the accumulator acc: acc plus its block's sums. -/
def stepVal (c : Dev nD) (n : ℕ) (h : n < cfg0.N) (acc : Vec F S1x1 .f32) : Vec F S1x1 .f32 :=
  upd (xb0 m c ⟨n, h⟩) (xb1 m c ⟨n, h⟩) (xb2 m c ⟨n, h⟩) k0_pay4 acc

theorem acc_reset (c : Dev nD) (n : ℕ) (h : n < cfg0.N) (h0 : n % 32 = 0) : accAfter m c n h = resetVal m c n h := by
  have h0' : (⟨n, h⟩ : Fin cfg0.N).val % 32 = 0 := h0
  have h1 : ¬(⟨n, h⟩ : Fin cfg0.N).val % 32 = 31 := by dsimp only; omega
  unfold accAfter resetVal
  rw [outsAt0_A m c ⟨n, h⟩ h0' h1]
  dsimp only
  exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) (iblk m c 2 ⟨n, h⟩)

theorem acc_step (c : Dev nD) (n : ℕ) (h : n + 1 < cfg0.N) (h0 : ¬(n + 1) % 32 = 0) :
    accAfter m c (n + 1) h = stepVal m c (n + 1) h (accAfter m c n (Nat.lt_of_succ_lt h)) := by
  have h0' : ¬(⟨n + 1, h⟩ : Fin cfg0.N).val % 32 = 0 := h0
  unfold accAfter stepVal
  by_cases h1 : (⟨n + 1, h⟩ : Fin cfg0.N).val % 32 = 31
  · rw [outsAt0_C m c ⟨n + 1, h⟩ h0' h1]
    dsimp only
    rw [sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _]
    show upd _ _ _ (outsAt0 m c n _).2.2 (outsAt0 m c n _).2.1 = _
    rw [tableAt m c n]
  · rw [outsAt0_B m c ⟨n + 1, h⟩ h0' h1]
    dsimp only
    rw [sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _]
    show upd _ _ _ (outsAt0 m c n _).2.2 (outsAt0 m c n _).2.1 = _
    rw [tableAt m c n]

/-- At a stretch's last point the output block is the accumulator's entry on every lane. -/
theorem out_last (c : Dev nD) (t : Fin cfg0.N) (h1 : t.val % 32 = 31) :
    (outsAt0 m c t.val t.isLt).1 = k0_pay2 (accAfter m c t.val t.isLt) := by
  have h0 : ¬t.val % 32 = 0 := by omega
  unfold accAfter
  rw [outsAt0_C m c t h0 h1]
  dsimp only
  rw [out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _, sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _]

end Cert.KernelIdeal.Acc

end
-- ==== Proof.Spec.lean ====
/-
  The loss both programs compute, as one function of the three argument arrays, index by index over the
  extended reals, and the two re-arrangements of its sum that the two programs use.

  For each row n (262144 of them) a 1-based label word picks a class c(n) of 200, and the row's two
  regression outputs pred[n, c(n), 0..1] are compared with targets[n, 0..1] by the smooth-L1 term
  (d²/2 where |d| < 1, else |d| − 1/2).  The result is the sum of the 524288 terms, divided by 524288
  and doubled.  The reference sums the terms flat, in the order k = 2n + e; the kernel sums 64 blocks of
  4096 rows, each block as (the e = 0 terms) + (the e = 1 terms), 32 blocks to each of two accumulators.
  Addition on the extended reals is commutative and associative, so the three arrangements agree.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.ClassLoss

/-- The three argument arrays' types: predictions [262144, 200, 2], label words [262144], targets [262144, 2]. -/
abbrev Pred := (⟨3, ![262144, 200, 2]⟩ : Shape).Idx → EReal
abbrev Lab := (⟨1, ![262144]⟩ : Shape).Idx → BitVec 32
abbrev Tgt := (⟨2, ![262144, 2]⟩ : Shape).Idx → EReal

/-- Smooth-L1 (β = 1) of a difference d: (1/2 · d) · d where |d| < 1, else |d| − 1/2; |d| is max d (−d). The
    constants stay the f32 words the programs print (1.0 and 0.5). -/
def huber (d : EReal) : EReal :=
  Scalar.select (Ideal.cmp .olt (max d (-d)) (Ideal.ofBits .f32 0x3F800000#32))
    (Ideal.ofBits .f32 0x3F000000#32 * d * d) (max d (-d) - Ideal.ofBits .f32 0x3F000000#32)

/-- The class (0-based) a 1-based label word names, capped at the last class. -/
def cls (w : BitVec 32) : Fin 200 := ⟨min (w - 1#32).toNat 199, by omega⟩

/-- Every label is a class id in 1..200 (as an unsigned value, which for these words is the signed one). -/
def LabelsOk (l : Lab) : Prop := ∀ n : Fin 262144, 1 ≤ (l (ix1 n)).toNat ∧ (l (ix1 n)).toNat ≤ 200

/-- The term of row n, output e. -/
def term (p : Pred) (l : Lab) (t : Tgt) (n : Fin 262144) (e : Fin 2) : EReal :=
  huber (p (ix3 n (cls (l (ix1 n))) e) - t (ix2 n e))

/-- The sum of all terms. -/
def total (p : Pred) (l : Lab) (t : Tgt) : EReal := ∑ n : Fin 262144, ∑ e : Fin 2, term p l t n e

/-- What both programs do with the sum S of the terms: (0 + S) / 524288 · 2, the constants as printed words. -/
def scale (S : EReal) : EReal :=
  Ideal.div (Ideal.ofBits .f32 0x00000000#32 + S) (Ideal.ofBits .f32 0x49000000#32) * Ideal.ofBits .f32 0x40000000#32

/-- The result, a rank-0 array. -/
def loss (p : Pred) (l : Lab) (t : Tgt) : (⟨0, ![]⟩ : Shape).Idx → EReal := fun _ => scale (total p l t)

/-- Row r of block b (64 blocks of 4096 rows). -/
def row (b : Fin 64) (r : Fin 4096) : Fin 262144 := ⟨b.val * 4096 + r.val, by omega⟩

/-- One block's contribution, as the kernel forms it: the block's e = 0 terms, plus its e = 1 terms. -/
def blockSum (p : Pred) (l : Lab) (t : Tgt) (b : Fin 64) : EReal :=
  (∑ r : Fin 4096, term p l t (row b r) 0) + (∑ r : Fin 4096, term p l t (row b r) 1)

/-- Block i of accumulator c (2 accumulators of 32 blocks). -/
def blk (c : Fin 2) (i : Fin 32) : Fin 64 := ⟨c.val * 32 + i.val, by omega⟩

/-- The flat order of the reference: the sum over k = 2n + e of the term at (k / 2, k % 2) is the total. -/
theorem sum_flat (f : Fin 262144 → Fin 2 → EReal) :
    (∑ k : Fin 524288, f ⟨k.val / 2, by omega⟩ ⟨k.val % 2, by omega⟩) = ∑ n : Fin 262144, ∑ e : Fin 2, f n e := by
  rw [← Fintype.sum_prod_type']
  exact Fintype.sum_equiv (finProdFinEquiv (m := 262144) (n := 2)).symm _ (fun x : Fin 262144 × Fin 2 => f x.1 x.2) (fun k => rfl)

/-- A sum over the rows is the sum over the blocks of the sums over each block's rows, -/
theorem sum_rows (g : Fin 262144 → EReal) : ∑ n : Fin 262144, g n = ∑ b : Fin 64, ∑ r : Fin 4096, g (row b r) := by
  rw [← Fintype.sum_prod_type']
  exact (Fintype.sum_equiv (finProdFinEquiv (m := 64) (n := 4096)) (fun x : Fin 64 × Fin 4096 => g (row x.1 x.2)) g
    (fun x => congrArg g (Fin.ext (by simp only [row, finProdFinEquiv, Equiv.coe_fn_mk]; omega)))).symm

/-- and a sum over the blocks the sum over the two accumulators of the sums over each one's 32 blocks. -/
theorem sum_blks (h : Fin 64 → EReal) : ∑ b : Fin 64, h b = ∑ c : Fin 2, ∑ i : Fin 32, h (blk c i) := by
  rw [← Fintype.sum_prod_type']
  exact (Fintype.sum_equiv (finProdFinEquiv (m := 2) (n := 32)) (fun x : Fin 2 × Fin 32 => h (blk x.1 x.2)) h
    (fun x => congrArg h (Fin.ext (by simp only [blk, finProdFinEquiv, Equiv.coe_fn_mk]; omega)))).symm

/-- The kernel's arrangement: two accumulators of 32 blocks. -/
theorem total_eq_blocks (p : Pred) (l : Lab) (t : Tgt) :
    total p l t = ∑ c : Fin 2, ∑ i : Fin 32, blockSum p l t (blk c i) := by
  rw [← sum_blks (blockSum p l t)]
  unfold total blockSum
  rw [Finset.sum_add_distrib, ← sum_rows (fun n => term p l t n 0), ← sum_rows (fun n => term p l t n 1), ← Finset.sum_add_distrib]
  exact Finset.sum_congr rfl fun n _ => Fin.sum_univ_two _

end Cert.ClassLoss

end
-- ==== Proof.KPayload.lean ====
/-
  One grid point's update of the accumulator, read on the extended reals.  From the point's blocks x0 (4096 rows
  of 400 prediction entries), x1 (4096 class words), x2 (4096 rows of 2 targets), the table io of column words and
  the accumulator acc, the body forms, for each row r, the two masked row sums
      p_e(r) = Σ_k [io(r,k) = 2·clamp(x1 r) + e] · x0(r,k)      (e = 0, 1),
  the differences d_e(r) = p_e(r) − x2(r,e), their smooth-L1 terms, sums each of the two columns of terms over the
  4096 rows, and adds the two sums to acc.
-/
import proofs.«415864_j14181982011577_3_alg».proof.Proof.KUpd
import proofs.«415864_j14181982011577_3_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.Acc

open Cert.KernelIdeal Cert.KernelIdeal.Gen Cert.ClassLoss

/-- The start column of row r: its 0-based class word clamped to [0, 199], doubled. -/
def startCol (x1 : Vec Ideal S4096x1 .i32) (r : Fin 4096) : BitVec 32 :=
  IntOp.muli (IntOp.minsi 199#32 (IntOp.maxsi 0#32 (x1 (ix2 r 0)))) 2#32

theorem pay5_apply (x1 : Vec Ideal S4096x1 .i32) (r : Fin 4096) : k0_pay5 (F := Ideal) x1 (ix2 r 0) = startCol x1 r := by
  unfold k0_pay5 startCol
  simp only [shapeCast_self]
  rfl

/-- A column [4096, 1] broadcast along the 400 columns reads, at (r, k), the column at r. -/
theorem bcast_col {α : Type} (v : S4096x1.Idx → α) (h : S4096x1.Broadcasts S4096x400) (r : Fin 4096) (k : Fin 400) :
    broadcastTo S4096x400 v h (ix2 r k) = v (ix2 r 0) :=
  broadcastTo_apply v h (ix2 r k) (ix2 r 0) (fun a => match a with
    | ⟨0, _⟩ => by show r.val = if (4096 : Nat) = 1 then 0 else r.val; rw [if_neg (by decide)]
    | ⟨1, _⟩ => by show 0 = if (1 : Nat) = 1 then 0 else k.val; rw [if_pos rfl])

/-- Row r of a block masked by "column word = w" and summed over its 400 columns. -/
def rowPick (io : Vec Ideal S4096x400 .i32) (x0 : Vec Ideal S4096x400 .f32) (w : BitVec 32) (r : Fin 4096) : EReal :=
  ∑ k : Fin 400, Scalar.select (IntOp.cmpi .eq (io (ix2 r k)) w) (x0 (ix2 r k)) (Ideal.ofBits .f32 0x00000000#32)

/-- The index of [4096, 400] over row r with column k inserted is (r, k). -/
theorem lift_row (h : S4096x400.Reduces [1] S4096) (r : Fin 4096) (k : Fin 400) : h.lift (ix1 r) k = ix2 r k := by
  funext a
  match a with
  | ⟨0, _⟩ => exact Fin.ext rfl
  | ⟨1, _⟩ => exact Fin.ext rfl

/-- The lane sum of a block masked by "column word = the row's word v(r)", at row r. -/
theorem maskedRow (io : Vec Ideal S4096x400 .i32) (x0 : Vec Ideal S4096x400 .f32) (v : S4096x1.Idx → BitVec 32)
    (hb : S4096x1.Broadcasts S4096x400) (hr : S4096x400.Reduces [1] S4096) (hφ : FKind.Formats .f32)
    (hacc : (0x00000000#32 : BitVec FTy.f32.bits) = FKind.add.neutral .f32 hφ) (r : Fin 4096) :
    multiReduction (F := Ideal) .add [1] S4096 (select (cmpi .eq io (broadcastTo S4096x400 v hb)) (k0_pay6 (F := Ideal) x0)
        (broadcast S4096x400 (FloatOps.ofBits .f32 0x00000000#32))) 0x00000000#32 hr hφ hacc (ix1 r)
      = rowPick io x0 (v (ix2 r 0)) r := by
  refine (Ideal.multiReduction_add_single _ _ hr hφ hacc (ix1 r)).trans ?_
  unfold rowPick
  refine Finset.sum_congr rfl fun (k : Fin 400) _ => ?_
  rw [lift_row hr r k]
  show Scalar.select (IntOp.cmpi .eq (io (ix2 r k)) (broadcastTo S4096x400 v hb (ix2 r k))) (k0_pay6 (F := Ideal) x0 (ix2 r k)) _ = _
  rw [bcast_col]
  unfold k0_pay6
  rw [shapeCast_self]
  rfl

/-- A lane sum [4096] viewed as a column [4096, 1] reads at (r, 0) the sum at r. -/
theorem col_of_vec {α : Type} (v : S4096.Idx → α) (h : S4096.ShapeCasts S4096x1) (r : Fin 4096) :
    shapeCast S4096x1 v h (ix2 r 0) = v (ix1 r) :=
  shapeCast_apply v h (ix2 r 0) (ix1 r) (by
    rw [Shape.rowMajor_val_one, Shape.rowMajor_val_two]; show r.val = r.val * 1 + 0; omega)

/-- The first difference of row r: the row's entry picked at the start column, minus the first target. -/
def d0 (x1 : Vec Ideal S4096x1 .i32) (io : Vec Ideal S4096x400 .i32) (x0 : Vec Ideal S4096x400 .f32) (x2 : Vec Ideal S4096x2 .f32)
    (r : Fin 4096) : EReal := rowPick io x0 (startCol x1 r) r - x2 (ix2 r 0)
/-- The second: picked one column further, minus the second target. -/
def d1 (x1 : Vec Ideal S4096x1 .i32) (io : Vec Ideal S4096x400 .i32) (x0 : Vec Ideal S4096x400 .f32) (x2 : Vec Ideal S4096x2 .f32)
    (r : Fin 4096) : EReal := rowPick io x0 (IntOp.addi (startCol x1 r) 1#32) r - x2 (ix2 r 1)

theorem pay7_apply (x1 : Vec Ideal S4096x1 .i32) (io : Vec Ideal S4096x400 .i32) (x0 : Vec Ideal S4096x400 .f32) (x2 : Vec Ideal S4096x2 .f32) (r : Fin 4096) :
    k0_pay7 (F := Ideal) x1 io x0 x2 (ix2 r 0) = d0 x1 io x0 x2 r := by
  unfold k0_pay7 d0
  dsimp only
  refine (subf_apply _ _ _).trans ?_
  refine congrArg₂ (fun a b : EReal => a - b) ?_ ?_
  · refine (col_of_vec _ _ r).trans ?_
    refine (maskedRow io x0 (k0_pay5 (F := Ideal) x1) _ _ _ _ r).trans ?_
    rw [pay5_apply]
  · exact extractStridedSlice_apply _ x2 _ (ix2 r 0) (ix2 r 0) (fun a => match a with
      | ⟨0, _⟩ => by show r.val = 0 + r.val; omega
      | ⟨1, _⟩ => by show (0 : Nat) = 0 + 0; rfl)

theorem pay8_apply (x1 : Vec Ideal S4096x1 .i32) (io : Vec Ideal S4096x400 .i32) (x0 : Vec Ideal S4096x400 .f32) (x2 : Vec Ideal S4096x2 .f32) (r : Fin 4096) :
    k0_pay8 (F := Ideal) x1 io x0 x2 (ix2 r 0) = d1 x1 io x0 x2 r := by
  unfold k0_pay8 d1
  dsimp only
  refine (subf_apply _ _ _).trans ?_
  refine congrArg₂ (fun a b : EReal => a - b) ?_ ?_
  · refine (col_of_vec _ _ r).trans ?_
    refine (maskedRow io x0 (addi (k0_pay5 (F := Ideal) x1) (broadcast S4096x1 1#32)) _ _ _ _ r).trans ?_
    show rowPick io x0 (IntOp.addi (k0_pay5 (F := Ideal) x1 (ix2 r 0)) 1#32) r = _
    rw [pay5_apply]
  · exact extractStridedSlice_apply _ x2 _ (ix2 r 0) (ix2 r 1) (fun a => match a with
      | ⟨0, _⟩ => by show r.val = 0 + r.val; omega
      | ⟨1, _⟩ => by show (1 : Nat) = 1 + 0; rfl)

/-- The sum of all entries of a column [4096, 1] viewed [1, 4096, 1] is the sum over its rows. -/
theorem sum_col (v : S4096x1.Idx → EReal) (h : S4096x1.ShapeCasts S1x4096x1) :
    ∑ i : S1x4096x1.Idx, shapeCast S1x4096x1 v h i = ∑ r : Fin 4096, v (ix2 r 0) := by
  show ∑ i : S1x4096x1.Idx, v (Shape.reshapeEquiv h i) = _
  rw [Equiv.sum_comp (Shape.reshapeEquiv h) v, sum_idx2]
  exact Finset.sum_congr rfl fun r _ => Fin.sum_univ_one _

/-- The smooth-L1 column of a difference column d, summed over the block. -/
theorem sum_terms (d : Vec Ideal S4096x1 .f32) (h : S4096x1.ShapeCasts S1x4096x1) (hr : S1x4096x1.Reduces [1, 2] S1)
    (hφ : FKind.Formats .f32) (hacc : (0x00000000#32 : BitVec FTy.f32.bits) = FKind.add.neutral .f32 hφ) (j : S1.Idx) :
    multiReduction (F := Ideal) (φ := .f32) .add [1, 2] S1 (shapeCast S1x4096x1
        (select (cmpf (F := Ideal) .olt (absf d) (broadcast S4096x1 (Scalar.ofBits .f32 0x3F800000#32)))
          (mulf (mulf (broadcast S4096x1 (Scalar.ofBits .f32 0x3F000000#32)) d) d)
          (subf (absf d) (broadcast S4096x1 (Scalar.ofBits .f32 0x3F000000#32)))) h) 0x00000000#32 hr hφ hacc j
      = ∑ r : Fin 4096, huber (d (ix2 r 0)) := by
  refine (Ideal.multiReduction_add_total _ _ hr (fun b => by fin_cases b; rfl) hφ hacc j).trans ?_
  refine (sum_col _ h).trans ?_
  exact Finset.sum_congr rfl fun r _ => rfl

/-- THE UPDATE: the accumulator plus the block's two sums of smooth-L1 terms. -/
theorem upd_apply (x0 : Vec Ideal S4096x400 .f32) (x1 : Vec Ideal S4096x1 .i32) (x2 : Vec Ideal S4096x2 .f32)
    (io : Vec Ideal S4096x400 .i32) (acc : Vec Ideal S1x1 .f32) (j : S1x1.Idx) :
    upd (F := Ideal) x0 x1 x2 io acc j
      = acc j + ((∑ r : Fin 4096, huber (d0 x1 io x0 x2 r)) + (∑ r : Fin 4096, huber (d1 x1 io x0 x2 r))) := by
  unfold upd k0_pay1
  dsimp only
  refine (congrFun (shapeCast_self _ _) j).trans ?_
  refine (addf_apply _ _ _).trans ?_
  refine congrArg (fun z : EReal => acc j + z) ?_
  refine (broadcast_apply _ j).trans ?_
  refine (Ideal.scalar_addf_def _ _).trans ?_
  refine congrArg₂ (fun a b : EReal => a + b) ?_ ?_
  · exact Eq.trans (sum_terms (k0_pay7 (F := Ideal) x1 io x0 x2) _ _ (.inl rfl) rfl
        ((Shape.reshapeEquiv shapeCasts_S1_S1x1x1) fun a => ⟨![0, 0, 0] a, inpos_S1x1x1_p0_0_0 a⟩))
      (Finset.sum_congr rfl fun r _ => congrArg huber (pay7_apply x1 io x0 x2 r))
  · exact Eq.trans (sum_terms (k0_pay8 (F := Ideal) x1 io x0 x2) _ _ (.inl rfl) rfl
        ((Shape.reshapeEquiv shapeCasts_S1_S1x1x1) fun a => ⟨![0, 0, 0] a, inpos_S1x1x1_p0_0_0 a⟩))
      (Finset.sum_congr rfl fun r _ => congrArg huber (pay8_apply x1 io x0 x2 r))

end Cert.KernelIdeal.Acc

end
-- ==== Proof.KFold.lean ====
/-
  The accumulator after a point, on the extended reals, as a sum: the accumulator is reset at the first point of
  each stretch of 32 points and every later point of the stretch adds its block's sum, so after point t it holds
  zero plus the sums of the blocks of its stretch up to t.
-/
import proofs.«415864_j14181982011577_3_alg».proof.Proof.KInvariant
import proofs.«415864_j14181982011577_3_alg».proof.Proof.KPayload

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.ClassLoss

variable (m : (ℓ : Loc nD τ sig) → Buf (Elt Ideal) ℓ)

/-- The sum point t adds: its block's first-output terms plus its second-output terms, the column table the iota. -/
def ptSum (c : Dev nD) (t : Fin cfg0.N) : EReal :=
  (∑ r : Fin 4096, huber (d0 (xb1 m c t) k0_pay4 (xb0 m c t) (xb2 m c t) r))
    + (∑ r : Fin 4096, huber (d1 (xb1 m c t) k0_pay4 (xb0 m c t) (xb2 m c t) r))

/-- The same indexed by any natural (zero past the grid), constant over the accumulator's one entry. -/
def ptSumN (c : Dev nD) (n : ℕ) : S1x1.Idx → EReal := fun _ => if h : n < cfg0.N then ptSum m c ⟨n, h⟩ else 0

/-- After point t the accumulator is the zero it was reset to plus the sums of its stretch's points up to t. -/
theorem acc_fold (c : Dev nD) (t : ℕ) (ht : t < cfg0.N) (j : S1x1.Idx) :
    accAfter m c t ht j
      = (k0_pay3 (F := Ideal)) j + ∑ s ∈ Finset.range (t % 32 + 1), ptSumN m c (32 * (t / 32) + s) j := by
  have h' : 32 * (t / 32) + t % 32 < cfg0.N := by rw [Nat.div_add_mod]; exact ht
  rw [Pipeline.eq_accAt_of_mod (accAfter m c) 32 (resetVal m c) (stepVal m c) (fun n h h0 => acc_reset m c n h h0)
    (fun n h h0 => acc_step m c n h h0) (by decide) t ht h']
  exact Pipeline.accAt_add_apply (resetVal m c) (stepVal m c) (k0_pay3 (F := Ideal)) (ptSumN m c) (32 * (t / 32)) 31
    (fun h i => by unfold resetVal ptSumN; rw [upd_apply, dif_pos h]; rfl)
    (fun n h acc i _ _ => by unfold stepVal ptSumN; rw [upd_apply, dif_pos h]; rfl)
    (t % 32) (by omega) h' j

end Cert.KernelIdeal.Acc

end
-- ==== Proof.KFinal.lean ====
/-
  The kernel's result array after the run, and the program's result.  The output array [2, 1, 128] is written
  back twice, row q at the last point 32q + 31 of stretch q, with the accumulator's entry on all 128 lanes; the
  host then takes lane 0 of both rows, adds them to zero, divides by 524288 and doubles.
-/
import proofs.«415864_j14181982011577_3_alg».proof.Proof.KFold
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.ClassLoss

variable (m : (ℓ : Loc nD τ sig) → Buf (Elt Ideal) ℓ) (ρ : Dev nD → PrngReg)

/-- The output block's payload: the accumulator's one entry on every lane. -/
theorem pay2_apply {F : FTy → Type} [FloatOps F] (v : Vec F S1x1 .f32) (y : S1x1x128.Idx) : k0_pay2 v y = v (ix2 0 0) := by
  unfold k0_pay2
  refine (broadcastTo_apply _ _ y (ix3 0 0 0) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show (0 : Nat) = if (1 : Nat) = 1 then 0 else _; rw [if_pos rfl])).trans ?_
  exact shapeCast_apply v _ (ix3 0 0 0) (ix2 0 0) (by
    rw [Shape.rowMajor_val_two, Shape.rowMajor_val_three]; rfl)

/-- The accumulator does not depend on how its point's bound is proved. -/
theorem accAfter_congr (c : Dev nD) {n n' : ℕ} (e : n = n') (h : n < cfg0.N) (h' : n' < cfg0.N) :
    accAfter m c n h = accAfter m c n' h' := by subst e; rfl

theorem lastPt_lt (q : Fin 2) : 32 * q.val + 31 < cfg0.N := by
  have h : grid0.N = 64 := N_0
  show 32 * q.val + 31 < grid0.N
  omega

/-- The accumulator's entry after the last point of stretch q. -/
def lastAcc (c : Dev nD) (q : Fin 2) : EReal := accAfter m c (32 * q.val + 31) (lastPt_lt q) (ix2 0 0)

/-- The result array after the run: row q holds stretch q's final accumulator on every lane. -/
def outArr (c : Dev nD) : Vec Ideal S2x1x128 .f32 := fun i => lastAcc m c ⟨(i 0).val, (i 0).isLt⟩

/-- Output window 3's block index at point t is (t / 32, 0, 0). -/
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a flushing point writes back is its block of the result array. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  have hN : grid0.N = 64 := N_0
  have htl : t.val < grid0.N := t.isLt
  have hi := idx3 t
  show (cfg0.win 3).cut (grid0.coords t) ((dats m 0 c).after 3 t) = _
  rw [after0_3, out_last m c t h31]
  funext y
  rw [View.read_apply]
  refine (pay2_apply _ _).trans ?_
  show accAfter m c t.val t.isLt (ix2 0 0) = lastAcc m c ⟨_, _⟩
  unfold lastAcc
  refine congrFun (accAfter_congr m c ?_ _ _) (ix2 0 0)
  show t.val = 32 * (win0_3.index t 0 * 1 + 1 * (y 0).val) + 31
  have hy : (y 0).val < 1 := (y 0).isLt
  rw [hi.1]
  omega

/-- Output window 3's block at every point: where it starts in the array and its extents. -/
theorem geo3 : ∀ t : Fin cfg0.N,
    win0_3.index t 0 * win0_3.size 0 = t.val / 32 ∧ win0_3.index t 1 * win0_3.size 1 = 0 ∧ win0_3.index t 2 * win0_3.size 2 = 0
      ∧ win0_3.xsize (grid0.coords t) 0 = 1 ∧ win0_3.xsize (grid0.coords t) 1 = 1 ∧ win0_3.xsize (grid0.coords t) 2 = 128 :=
  (by decide +kernel : ∀ t : Fin grid0.N,
    win0_3.index t 0 * win0_3.size 0 = t.val / 32 ∧ win0_3.index t 1 * win0_3.size 1 = 0 ∧ win0_3.index t 2 * win0_3.size 2 = 0
      ∧ win0_3.xsize (grid0.coords t) 0 = 1 ∧ win0_3.xsize (grid0.coords t) 1 = 1 ∧ win0_3.xsize (grid0.coords t) 2 = 128)

/-- Every entry of the result array lies in the block some flushing point writes: row q in that of point 32q + 31. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 1 := (i 1).isLt
  have h2 : (i 2 : Nat) < 128 := (i 2).isLt
  have hg := geo3 ⟨32 * (i 0 : Nat) + 31, lastPt_lt ⟨(i 0 : Nat), h0⟩⟩
  refine ⟨⟨32 * (i 0 : Nat) + 31, lastPt_lt ⟨(i 0 : Nat), h0⟩⟩, (flush0_3 _).mpr (by show (32 * (i 0 : Nat) + 31) % 32 = 31; omega), ?_⟩
  show i ∈ ((View.whole main_v4).slice (win0_3.rect ⟨32 * (i 0 : Nat) + 31, lastPt_lt ⟨(i 0 : Nat), h0⟩⟩)).set
  rw [View.set_slice_whole, Rect.mem_set_unit]
  intro a
  match a with
  | ⟨0, _⟩ =>
    show win0_3.index ⟨32 * (i 0 : Nat) + 31, _⟩ 0 * win0_3.size 0 ≤ (i 0 : Nat)
      ∧ (i 0 : Nat) < win0_3.index ⟨32 * (i 0 : Nat) + 31, _⟩ 0 * win0_3.size 0 + win0_3.xsize (grid0.coords ⟨32 * (i 0 : Nat) + 31, _⟩) 0
    rw [hg.1, hg.2.2.2.1]
    show (32 * (i 0 : Nat) + 31) / 32 ≤ (i 0 : Nat) ∧ (i 0 : Nat) < (32 * (i 0 : Nat) + 31) / 32 + 1
    omega
  | ⟨1, _⟩ =>
    show win0_3.index ⟨32 * (i 0 : Nat) + 31, _⟩ 1 * win0_3.size 1 ≤ (i 1 : Nat)
      ∧ (i 1 : Nat) < win0_3.index ⟨32 * (i 0 : Nat) + 31, _⟩ 1 * win0_3.size 1 + win0_3.xsize (grid0.coords ⟨32 * (i 0 : Nat) + 31, _⟩) 1
    rw [hg.2.1, hg.2.2.2.2.1]
    omega
  | ⟨2, _⟩ =>
    show win0_3.index ⟨32 * (i 0 : Nat) + 31, _⟩ 2 * win0_3.size 2 ≤ (i 2 : Nat)
      ∧ (i 2 : Nat) < win0_3.index ⟨32 * (i 0 : Nat) + 31, _⟩ 2 * win0_3.size 2 + win0_3.xsize (grid0.coords ⟨32 * (i 0 : Nat) + 31, _⟩) 2
    rw [hg.2.2.1, hg.2.2.2.2.2]
    omega

/-- So the result array ends holding, in row q, stretch q's final accumulator. -/
theorem final_out (c : Dev nD) : (dats m 0 c).arrAt 3 cfg0.N = outArr m c :=
  (dats m 0 c).arrAt_eq_of_cover 3 (outArr m c) (flushed_eq m c) (cover c)

/-- Stretch q's final accumulator: the zero it was reset to plus the sums of the stretch's 32 points. -/
theorem lastAcc_eq (c : Dev nD) (q : Fin 2) :
    lastAcc m c q = (k0_pay3 (F := Ideal)) (ix2 0 0) + ∑ s ∈ Finset.range 32, ptSumN m c (32 * q.val + s) (ix2 0 0) := by
  unfold lastAcc
  rw [acc_fold m c (32 * q.val + 31) (lastPt_lt q) (ix2 0 0)]
  have e1 : (32 * q.val + 31) % 32 + 1 = 32 := by have := q.isLt; omega
  have e2 : 32 * ((32 * q.val + 31) / 32) = 32 * q.val := by have := q.isLt; omega
  rw [e1, e2]

/-- The program's result after the host operations that follow the region. -/
theorem tail_eq (c : Dev nD) :
    Pipeline.afterTail₀ cfgs (dats m) 0 (V0 m) [hostOps1] c main_v9
      = mulf (Host.divf (Host.reduceAdd (shapeCast S2 (extractStridedSlice S2x1x1 ![0, 0, 0] (outArr m c) slices_S2x1x128_S2x1x1_0_0_0) shapeCasts_S2x1x1_S2)
          (constant (F := Ideal) S_ .f32 0x00000000#32) reducesTo_S2_S_d0 h_S_) (constant (F := Ideal) S_ .f32 0x49000000#32)) (constant (F := Ideal) S_ .f32 0x40000000#32) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v4)
      = outArr m c :=
    (Pipeline.withArrays_arr spec0 launch0.win.arr_inj c _ _ 3).trans (final_out m c)
  rw [e]
  rfl

end Cert.KernelIdeal.Acc

end
-- ==== Proof.KBlocks.lean ====
/-
  What the three input windows hold at a grid point, read at an index, in terms of the argument arrays.

  The 64 grid points each take a block of 4096 consecutive rows: point t takes rows 4096·t … 4096·t + 4095 of each
  windowed array, all its columns. Window 0's array is the prediction array [262144, 200, 2] reshaped to
  [262144, 400], so that its entry (row, k) is the prediction entry (row, k / 2, k % 2); window 1's array is the
  label words, each less one, reshaped to a column [262144, 1]; window 2's array is the target array itself.
-/
import proofs.«415864_j14181982011577_3_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- Row r of the block of point t, as a row of the whole arrays. -/
def grow (t : Fin cfg0.N) (r : Fin 4096) : Fin 262144 :=
  ⟨t.val * 4096 + r.val, by
    have h : grid0.N = 64 := N_0
    have ht : t.val < grid0.N := t.isLt
    have := r.isLt
    omega⟩

/-! ## The block indices: point t = 32·i₀ + i₁ takes block (t, 0) of each input window -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-! ## The two arrays written before the region -/

/-- Window 0's array when the region is entered: the prediction array, reshaped to [262144, 400]. -/
theorem V_main_v0 (c : Dev nD) :
    (V m c main_v0 : S262144x400.Idx → Elt F .f32)
      = shapeCast S262144x400 (m ((c : Thread nD τ).loc main_arg0) : S262144x200x2.Idx → Elt F .f32) shapeCasts_S262144x200x2_S262144x400 := by
  show StableHlo.after hostOps0 (fun b => m (c, b)) (Proc.devRef .tc main_v0) = _
  after_results
  rfl

/-- Window 1's array when the region is entered: the label words less the constant 1, reshaped to a column. -/
theorem V_main_v3 (c : Dev nD) :
    (V m c main_v3 : S262144x1.Idx → Elt F .i32)
      = shapeCast S262144x1 (subi (m ((c : Thread nD τ).loc main_arg1) : S262144.Idx → Elt F .i32)
          (broadcastInDim S262144 ![] bcast_S_S262144 (constantI S_ 32 1#32))) shapeCasts_S262144_S262144x1 := by
  show StableHlo.after hostOps0 (fun b => m (c, b)) (Proc.devRef .tc main_v3) = _
  after_results
  rfl

/-! ## The blocks, read at an index -/

/-- Window 0 at point t, entry (r, k): the prediction of row 4096·t + r, class k / 2, output k % 2. The block's
    entry sits in its array at (t · 4096 + r, 0 · 400 + k); the reshape keeps the row-major position:
    ((row · 200 + k / 2) · 2 + k % 2 = row · 400 + k). -/
theorem blk0_apply (c : Dev nD) (t : Fin cfg0.N) (r : Fin 4096) (k : Fin 400) :
    (iblk m c 0 t : Vec F S4096x400 .f32) (ix2 r k)
      = (m ((c : Thread nD τ).loc main_arg0) : Vec F S262144x200x2 .f32) (ix3 (grow t r) ⟨k.val / 2, by omega⟩ ⟨k.val % 2, by omega⟩) := by
  have hi := idx0 t
  have hb : (iblk m c 0 t : Vec F S4096x400 .f32) (ix2 r k) = (V m c main_v0 : S262144x400.Idx → Elt F .f32) (ix2 (grow t r) k) := by
    unfold iblk
    rw [View.read_apply]
    show V m c main_v0 _ = V m c main_v0 _
    congr 1
    funext a
    apply Fin.ext
    match a with
    | ⟨0, _⟩ => show win0_0.index t 0 * 4096 + 1 * r.val = t.val * 4096 + r.val; rw [hi.1]; omega
    | ⟨1, _⟩ => show win0_0.index t 1 * 400 + 1 * k.val = k.val; rw [hi.2]; omega
  rw [hb, V_main_v0]
  refine shapeCast_apply (s := S262144x200x2) (t := S262144x400) _ _ _ _ ?_
  rw [Shape.rowMajor_val_three, Shape.rowMajor_val_two]
  show ((grow t r).val * 200 + k.val / 2) * 2 + k.val % 2 = (grow t r).val * 400 + k.val
  omega

/-- Window 1 at point t, entry (r, 0): the label word of row 4096·t + r, less one. -/
theorem blk1_apply (c : Dev nD) (t : Fin cfg0.N) (r : Fin 4096) :
    (iblk m c 1 t : Vec F S4096x1 .i32) (ix2 r 0)
      = IntOp.subi ((m ((c : Thread nD τ).loc main_arg1) : Vec F S262144 .i32) (ix1 (grow t r))) 1#32 := by
  have hi := idx1 t
  have hb : (iblk m c 1 t : Vec F S4096x1 .i32) (ix2 r 0) = (V m c main_v3 : S262144x1.Idx → Elt F .i32) (ix2 (grow t r) 0) := by
    unfold iblk
    rw [View.read_apply]
    show V m c main_v3 _ = V m c main_v3 _
    congr 1
    funext a
    apply Fin.ext
    match a with
    | ⟨0, _⟩ => show win0_1.index t 0 * 4096 + 1 * r.val = t.val * 4096 + r.val; rw [hi.1]; omega
    | ⟨1, _⟩ => show win0_1.index t 1 * 1 + 1 * 0 = 0; rw [hi.2]
  rw [hb, V_main_v3]
  -- the column's entry (row, 0) is the vector's entry row; there the subtraction is of the two words, the
  -- second the broadcast constant 1
  refine (shapeCast_apply (s := S262144) (t := S262144x1) _ _ _ (ix1 (grow t r)) ?_).trans rfl
  rw [Shape.rowMajor_val_one, Shape.rowMajor_val_two]
  show (grow t r).val = (grow t r).val * 1 + 0
  omega

/-- Window 2 at point t, entry (r, e): the target of row 4096·t + r, output e (no operation before the region
    writes the target array). -/
theorem blk2_apply (c : Dev nD) (t : Fin cfg0.N) (r : Fin 4096) (e : Fin 2) :
    (iblk m c 2 t : Vec F S4096x2 .f32) (ix2 r e) = (m ((c : Thread nD τ).loc main_arg2) : Vec F S262144x2 .f32) (ix2 (grow t r) e) := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 4096 + 1 * r.val = t.val * 4096 + r.val; rw [hi.1]; omega
  | ⟨1, _⟩ => show win0_2.index t 1 * 2 + 1 * e.val = e.val; rw [hi.2]; omega

end Cert.KernelIdeal.Acc

end
-- ==== Proof.Words.lean ====
/-
  Facts about the 32-bit words the two programs compute from a label: the 0-based class word, its clamp to
  [0, 199], and the two column words 2w and 2w + 1 with which a row of 400 entries is masked and summed.
-/
import proofs.«415864_j14181982011577_3_alg».proof.Proof.Spec
import Idealize.ShloMosaic.Lib.StableHlo.Predicate

open Idealize.ShloMosaic Idealize.ShloMosaic.ValueIdx
open scoped BigOperators

namespace Cert.ClassLoss

/-- the 0-based class word of a label in range -/
theorem sub_one_toNat (l : BitVec 32) (h1 : 1 ≤ l.toNat) (h2 : l.toNat ≤ 200) : (IntOp.subi l 1#32).toNat = l.toNat - 1 := by
  unfold IntOp.subi
  rw [BitVec.toNat_sub, show (1#32 : BitVec 32).toNat = 1 from rfl]
  omega

theorem cls_val (l : BitVec 32) (h1 : 1 ≤ l.toNat) (h2 : l.toNat ≤ 200) : (cls l).val = l.toNat - 1 := by
  have h := sub_one_toNat l h1 h2
  unfold IntOp.subi at h
  show min (l - 1#32).toNat 199 = l.toNat - 1
  rw [h]
  omega

/-- clamping a word already in 0..199 to [0, 199] changes nothing (note the argument order: this is how the kernel prints it) -/
theorem clamp_id (w : BitVec 32) (hw : w.toNat ≤ 199) : IntOp.minsi 199#32 (IntOp.maxsi 0#32 w) = w := by
  have hti : w.toInt = w.toNat := StableHlo.Predicate.toInt_eq_toNat_of_lt (by omega)
  have h0 : (0#32 : BitVec 32).toInt = 0 := by decide
  have h199 : (199#32 : BitVec 32).toInt = 199 := by decide
  -- w is not below 0, so the maximum with 0 is w
  have hmax : IntOp.maxsi 0#32 w = w := by
    unfold IntOp.maxsi
    refine if_neg ?_
    rw [BitVec.slt_iff_toInt_lt, hti, h0]
    omega
  rw [hmax]
  -- 199 is not below w, so the minimum with 199 is w
  unfold IntOp.minsi
  refine if_neg ?_
  rw [BitVec.slt_iff_toInt_lt, hti, h199]
  omega

/-- A row of 400 entries masked by "column index = c", for a word c whose value is the column j, sums to
    its entry at j: every other summand is the zero the mask puts there. -/
private theorem pick_at (c : BitVec 32) (j : Fin 400) (hc : c.toNat = j.val) (f : Fin 400 → EReal) :
    (∑ k : Fin 400, Scalar.select (IntOp.cmpi .eq (BitVec.ofNat 32 k.val) c) (f k) (Ideal.ofBits .f32 0x00000000#32)) = f j := by
  have hcj : BitVec.ofNat 32 j.val = c := by
    apply BitVec.eq_of_toNat_eq
    rw [BitVec.toNat_ofNat, hc]
    have := j.isLt
    omega
  rw [Finset.sum_eq_single j]
  · rw [StableHlo.Predicate.cmpi_eq_iff.2 hcj]
    exact select_one _ _
  · intro k _ hk
    have hne : ¬ IntOp.cmpi .eq (BitVec.ofNat 32 k.val) c = 1#1 := by
      intro he
      have ht := congrArg BitVec.toNat (StableHlo.Predicate.cmpi_eq_iff.1 he)
      rw [BitVec.toNat_ofNat, hc] at ht
      have := k.isLt
      exact hk (Fin.ext (by omega))
    rw [eq_zero_of_ne_one hne, select_zero, Ideal.ofBits_zero_f32]
  · intro hj
    exact absurd (Finset.mem_univ j) hj

/-- a row masked by "column index = 2w" sums to its entry at column 2w; the zero is the f32 zero word's value -/
theorem pick_even (w : BitVec 32) (hw : w.toNat ≤ 199) (f : Fin 400 → EReal) :
    (∑ k : Fin 400, Scalar.select (IntOp.cmpi .eq (BitVec.ofNat 32 k.val) (IntOp.muli w 2#32)) (f k) (Ideal.ofBits .f32 0x00000000#32)) = f ⟨2 * w.toNat, by omega⟩ := by
  refine pick_at _ ⟨2 * w.toNat, by omega⟩ ?_ f
  unfold IntOp.muli
  rw [BitVec.toNat_mul, show (2#32 : BitVec 32).toNat = 2 from rfl]
  show w.toNat * 2 % 2 ^ 32 = 2 * w.toNat
  omega

theorem pick_odd (w : BitVec 32) (hw : w.toNat ≤ 199) (f : Fin 400 → EReal) :
    (∑ k : Fin 400, Scalar.select (IntOp.cmpi .eq (BitVec.ofNat 32 k.val) (IntOp.addi (IntOp.muli w 2#32) 1#32)) (f k) (Ideal.ofBits .f32 0x00000000#32)) = f ⟨2 * w.toNat + 1, by omega⟩ := by
  refine pick_at _ ⟨2 * w.toNat + 1, by omega⟩ ?_ f
  unfold IntOp.addi IntOp.muli
  rw [BitVec.toNat_add, BitVec.toNat_mul, show (2#32 : BitVec 32).toNat = 2 from rfl, show (1#32 : BitVec 32).toNat = 1 from rfl]
  show (w.toNat * 2 % 2 ^ 32 + 1) % 2 ^ 32 = 2 * w.toNat + 1
  omega

end Cert.ClassLoss
-- ==== Proof.KBlockSum.lean ====
/-
  One grid point's contribution to the accumulator is the block sum of its 4096 rows.

  Fix row r of point t's block, the row n = 4096·t + r of the arrays, with label word l in 1..200.  The class
  word is w = l − 1, of value l − 1 ≤ 199, so the clamp to [0, 199] keeps it and the start column is 2w.  The
  column table holds the column numbers, so the row masked by "column = 2w" (resp. 2w + 1) sums to its one
  entry at column 2w (resp. 2w + 1), which in the prediction array is the entry (n, w, 0) (resp. (n, w, 1)):
  the class l names, first (resp. second) output.  Less the row's target, under the smooth-L1 function, that is
  the term of (n, 0) (resp. (n, 1)); summing over the rows gives the block sum.
-/
import proofs.«415864_j14181982011577_3_alg».proof.Proof.KFold
import proofs.«415864_j14181982011577_3_alg».proof.Proof.KBlocks
import proofs.«415864_j14181982011577_3_alg».proof.Proof.Words

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.ClassLoss

variable (m : (ℓ : Loc nD τ sig) → Buf (Elt Ideal) ℓ)

/-- Point t as a block number. -/
def bnum (t : Fin cfg0.N) : Fin 64 :=
  ⟨t.val, by have h : grid0.N = 64 := N_0; have ht : t.val < grid0.N := t.isLt; omega⟩

/-- The column table reads, at (r, k), the column number k as a word. -/
theorem table_apply (r : Fin 4096) (k : Fin 400) : k0_pay4 (ix2 r k) = BitVec.ofNat 32 k.val := by
  unfold k0_pay4
  dsimp only
  rw [shapeCast_self]
  exact iota_single_apply .tc S4096x400 32 1 _ (ix2 r k)

/-- Masked by "column number = 2w" a row sums to its entry at column 2w, -/
theorem rowPick_even (x0 : Vec Ideal S4096x400 .f32) (w : BitVec 32) (hw : w.toNat ≤ 199) (r : Fin 4096) :
    rowPick k0_pay4 x0 (IntOp.muli w 2#32) r = x0 (ix2 r ⟨2 * w.toNat, by omega⟩) := by
  unfold rowPick
  refine Eq.trans (Finset.sum_congr rfl fun k _ => ?_) (pick_even w hw fun k => x0 (ix2 r k))
  rw [table_apply]

/-- and masked by "column number = 2w + 1" to its entry at column 2w + 1. -/
theorem rowPick_odd (x0 : Vec Ideal S4096x400 .f32) (w : BitVec 32) (hw : w.toNat ≤ 199) (r : Fin 4096) :
    rowPick k0_pay4 x0 (IntOp.addi (IntOp.muli w 2#32) 1#32) r = x0 (ix2 r ⟨2 * w.toNat + 1, by omega⟩) := by
  unfold rowPick
  refine Eq.trans (Finset.sum_congr rfl fun k _ => ?_) (pick_odd w hw fun k => x0 (ix2 r k))
  rw [table_apply]

/-- The start column of row r of point t's block is twice the row's class word (its label word less one): the
    clamp to [0, 199] leaves a class word of a label in 1..200 as it is. -/
theorem startCol_eq (c : Dev nD) (t : Fin cfg0.N) (r : Fin 4096) (l : BitVec 32)
    (hl : (m ((c : Thread nD τ).loc main_arg1) : Lab) (ix1 (grow t r)) = l) (h1 : 1 ≤ l.toNat) (h2 : l.toNat ≤ 200) :
    startCol (xb1 m c t) r = IntOp.muli (IntOp.subi l 1#32) 2#32 := by
  have hw := sub_one_toNat l h1 h2
  unfold startCol
  rw [show xb1 m c t (ix2 r 0) = IntOp.subi l 1#32 from (blk1_apply m c t r).trans (by rw [hl]), clamp_id _ (by omega)]

/-- Row r of point t's block, first output: the smooth-L1 term of the row 4096·t + r. -/
theorem row_term0 (c : Dev nD) (t : Fin cfg0.N) (hl : LabelsOk (m ((c : Thread nD τ).loc main_arg1))) (r : Fin 4096) :
    huber (d0 (xb1 m c t) k0_pay4 (xb0 m c t) (xb2 m c t) r)
      = term (m ((c : Thread nD τ).loc main_arg0)) (m ((c : Thread nD τ).loc main_arg1)) (m ((c : Thread nD τ).loc main_arg2)) (row (bnum t) r) 0 := by
  have hn : row (bnum t) r = grow t r := Fin.ext rfl
  obtain ⟨h1, h2⟩ := hl (grow t r)
  have hw := sub_one_toNat _ h1 h2
  rw [hn]
  unfold term d0
  refine congrArg huber (congrArg₂ (fun a b : EReal => a - b) ?_ (blk2_apply m c t r 0))
  rw [startCol_eq m c t r _ rfl h1 h2]
  refine (rowPick_even (xb0 m c t) _ (by omega) r).trans ?_
  refine (blk0_apply m c t r _).trans ?_
  refine congrArg₂ (fun a b => (m ((c : Thread nD τ).loc main_arg0) : Pred) (ix3 (grow t r) a b)) (Fin.ext ?_) (Fin.ext ?_)
  · show 2 * (IntOp.subi _ 1#32).toNat / 2 = (cls _).val
    rw [cls_val _ h1 h2, hw]
    omega
  · show 2 * (IntOp.subi _ 1#32).toNat % 2 = 0
    omega

/-- The same for the second output: the entry one column further, the second target. -/
theorem row_term1 (c : Dev nD) (t : Fin cfg0.N) (hl : LabelsOk (m ((c : Thread nD τ).loc main_arg1))) (r : Fin 4096) :
    huber (d1 (xb1 m c t) k0_pay4 (xb0 m c t) (xb2 m c t) r)
      = term (m ((c : Thread nD τ).loc main_arg0)) (m ((c : Thread nD τ).loc main_arg1)) (m ((c : Thread nD τ).loc main_arg2)) (row (bnum t) r) 1 := by
  have hn : row (bnum t) r = grow t r := Fin.ext rfl
  obtain ⟨h1, h2⟩ := hl (grow t r)
  have hw := sub_one_toNat _ h1 h2
  rw [hn]
  unfold term d1
  refine congrArg huber (congrArg₂ (fun a b : EReal => a - b) ?_ (blk2_apply m c t r 1))
  rw [startCol_eq m c t r _ rfl h1 h2]
  refine (rowPick_odd (xb0 m c t) _ (by omega) r).trans ?_
  refine (blk0_apply m c t r _).trans ?_
  refine congrArg₂ (fun a b => (m ((c : Thread nD τ).loc main_arg0) : Pred) (ix3 (grow t r) a b)) (Fin.ext ?_) (Fin.ext ?_)
  · show (2 * (IntOp.subi _ 1#32).toNat + 1) / 2 = (cls _).val
    rw [cls_val _ h1 h2, hw]
    omega
  · show (2 * (IntOp.subi _ 1#32).toNat + 1) % 2 = 1
    omega

/-- One grid point adds the block sum of its block of rows. -/
theorem ptSum_eq (c : Dev nD) (t : Fin cfg0.N) (hl : LabelsOk (m ((c : Thread nD τ).loc main_arg1))) :
    ptSum m c t = blockSum (m ((c : Thread nD τ).loc main_arg0)) (m ((c : Thread nD τ).loc main_arg1)) (m ((c : Thread nD τ).loc main_arg2)) (bnum t) := by
  unfold ptSum blockSum
  exact congrArg₂ (fun a b : EReal => a + b)
    (Finset.sum_congr rfl fun r _ => row_term0 m c t hl r)
    (Finset.sum_congr rfl fun r _ => row_term1 m c t hl r)

end Cert.KernelIdeal.Acc

end
-- ==== Proof.KTail.lean ====
/-
  The kernel program's host operations after its region, as one function of the region's result array, and what that
  function is on the extended reals.

  The region leaves a [2, 1, 128] array whose entries (c, 0, 0) are the two accumulators' partial sums. The program
  takes the [2, 1, 1] corner (a slice with zero offsets), flattens it to [2], sums the two entries starting from 0,
  divides by 524288 and doubles: (0 + (X[0,0,0] + X[1,0,0])) / 524288 · 2, the specification's scale of the two
  partial sums' sum.
-/
import proofs.«415864_j14181982011577_3_alg».proof.Proof.Gen.KernelIdeal
import proofs.«415864_j14181982011577_3_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.Acc

open Cert.KernelIdeal Cert.KernelIdeal.Gen Cert.ClassLoss

/-- The host operations after the region, as one function of the region's result array (any float family). -/
def tailOf {F : FTy → Type} [FloatOps F] (X : Vec F S2x1x128 .f32) : Vec F S_ .f32 :=
  mulf (Host.divf (Host.reduceAdd (shapeCast S2 (extractStridedSlice S2x1x1 ![0, 0, 0] X slices_S2x1x128_S2x1x1_0_0_0) shapeCasts_S2x1x1_S2)
      (constant S_ .f32 0x00000000#32) reducesTo_S2_S_d0 h_S_) (constant S_ .f32 0x49000000#32)) (constant S_ .f32 0x40000000#32)

/-- The flattened corner at q is the region's result at (q, 0, 0): the reshape keeps the row-major position, which for
    (q, 0, 0) of [2, 1, 1] is q, and the slice's offsets are zero. -/
theorem corner_at {α : Type} (X : S2x1x128.Idx → α) (q : Fin 2) :
    shapeCast S2 (extractStridedSlice S2x1x1 ![0, 0, 0] X slices_S2x1x128_S2x1x1_0_0_0) shapeCasts_S2x1x1_S2 (ix1 q)
      = X (ix3 q 0 0) := by
  rw [shapeCast_apply _ shapeCasts_S2x1x1_S2 (ix1 q) (ix3 q 0 0)
    (by rw [Shape.rowMajor_val_three, Shape.rowMajor_val_one]; show (q.val * 1 + 0) * 1 + 0 = q.val; omega)]
  exact extractStridedSlice_apply _ X _ (ix3 q 0 0) (ix3 q 0 0) fun a =>
    match a with
    | ⟨0, _⟩ => (Nat.zero_add _).symm
    | ⟨1, _⟩ => (Nat.zero_add _).symm
    | ⟨2, _⟩ => (Nat.zero_add _).symm

/-- The [2] index set is its coordinate's range. -/
private def pairEquiv : S2.Idx ≃ Fin 2 where
  toFun j := j 0
  invFun q := ix1 q
  left_inv j := (eq_ix1 j).symm
  right_inv _ := rfl

/-- On the extended reals the sum over the one axis of a [2] array, from 0, is 0 plus the two entries' sum. -/
theorem reduce_at (y : Vec Ideal S2 .f32) (i : S_.Idx) :
    Host.reduceAdd y (constant (F := Ideal) S_ .f32 0x00000000#32) reducesTo_S2_S_d0 h_S_ i
      = Ideal.ofBits .f32 0x00000000#32 + (y (ix1 0) + y (ix1 1)) := by
  simp only [Host.reduceAdd, Ideal.hostReduceAdd_def]
  rw [Ideal.hostReduceAdd_total reducesTo_S2_S_d0 (fun b => b.elim0) y _ i,
    Fintype.sum_equiv pairEquiv y (fun q => y (ix1 q)) (fun j => congrArg y (eq_ix1 j)), Fin.sum_univ_two]
  rfl

/-- On the extended reals: (0 + (X[0,0,0] + X[1,0,0])) / 524288 · 2, in the specification's spelling. -/
theorem tailOf_apply (X : Vec Ideal S2x1x128 .f32) : tailOf (F := Ideal) X = fun _ => scale (X (ix3 0 0 0) + X (ix3 1 0 0)) := by
  funext i
  show Ideal.div (Host.reduceAdd _ (constant (F := Ideal) S_ .f32 0x00000000#32) reducesTo_S2_S_d0 h_S_ i) (Ideal.ofBits .f32 0x49000000#32)
      * Ideal.ofBits .f32 0x40000000#32 = _
  rw [reduce_at, corner_at, corner_at]
  rfl

end Cert.KernelIdeal.Acc

end
-- ==== Proof.KResult.lean ====
/-
  The kernel's result.  Each stretch's final accumulator is the sum of its 32 blocks' sums (the zero it was reset
  to adds nothing), the two accumulators together are the specification's total in its two-by-32-blocks arrangement,
  and the host operations after the region scale that total as the specification does.  So the kernel's run ends
  with its result at the specification's loss of the three argument arrays, which it leaves unchanged.
-/
import proofs.«415864_j14181982011577_3_alg».proof.Proof.KFinal
import proofs.«415864_j14181982011577_3_alg».proof.Proof.KBlockSum
import proofs.«415864_j14181982011577_3_alg».proof.Proof.KTail

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.ClassLoss

variable (m : (ℓ : Loc nD τ sig) → Buf (Elt Ideal) ℓ) (ρ : Dev nD → PrngReg)

/-- The value the accumulator is reset to is zero. -/
theorem reset_zero : (k0_pay3 (F := Ideal)) (ix2 0 0) = 0 := by
  unfold k0_pay3
  simp only [shapeCast_self]
  exact Ideal.ofBits_zero_f32

/-- Stretch q's final accumulator is the sum of its 32 blocks' sums. -/
theorem lastAcc_blocks (c : Dev nD) (hl : LabelsOk (m ((c : Thread nD τ).loc main_arg1))) (q : Fin 2) :
    lastAcc m c q = ∑ i : Fin 32, blockSum (m ((c : Thread nD τ).loc main_arg0)) (m ((c : Thread nD τ).loc main_arg1))
      (m ((c : Thread nD τ).loc main_arg2)) (blk q i) := by
  rw [lastAcc_eq, reset_zero, zero_add, Finset.sum_range]
  refine Finset.sum_congr rfl fun i _ => ?_
  have hlt : 32 * q.val + i.val < cfg0.N := by
    have h : grid0.N = 64 := N_0
    have := q.isLt
    have := i.isLt
    show 32 * q.val + i.val < grid0.N
    omega
  unfold ptSumN
  rw [dif_pos hlt, ptSum_eq m c ⟨_, hlt⟩ hl]
  congr 1
  exact Fin.ext (by show 32 * q.val + i.val = q.val * 32 + i.val; omega)

/-- The program's result is the specification's loss. -/
theorem result_eq (c : Dev nD) (hl : LabelsOk (m ((c : Thread nD τ).loc main_arg1))) :
    Pipeline.afterTail₀ cfgs (dats m) 0 (V0 m) [hostOps1] c main_v9
      = loss (m ((c : Thread nD τ).loc main_arg0)) (m ((c : Thread nD τ).loc main_arg1)) (m ((c : Thread nD τ).loc main_arg2)) := by
  rw [tail_eq]
  show tailOf (F := Ideal) (outArr m c) = _
  rw [tailOf_apply]
  funext j
  unfold loss
  refine congrArg scale ?_
  show lastAcc m c 0 + lastAcc m c 1 = _
  rw [lastAcc_blocks m c hl 0, lastAcc_blocks m c hl 1, total_eq_blocks, Fin.sum_univ_two]

/-- THE KERNEL'S RUN: under the label-range hypothesis on every device's label array, every weakly fair execution
    terminates with the result at the specification's loss and the three arguments unchanged. -/
theorem run (hl : ∀ c : Dev nD, LabelsOk (m ((c : Thread nD τ).loc main_arg1))) :
    θ_run defs (onTc (τ := τ) (main (F := Ideal))) ⟨m, fun _ => 0, ρ⟩ (fun r => ∀ c : Dev nD,
      r.2.mem ((c.tc : Thread nD τ).loc main_v9)
          = loss (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (result_eq m c (hl c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.Acc

end
-- ==== Proof.RefValue.lean ====
/-
  The reference program's result is the specification's loss, at the ideal instance (floats are extended reals), for
  labels in 1..200.

  The reference shifts each label word down by one, lays the shifted words out as a [262144, 1, 1] array of start
  indices, adds 200 to the negative ones, tests each start index against 0..199, gathers from the predictions
  [262144, 200, 2] one row slice per start index (the row axis batched, the class axis start-indexed and collapsed,
  the output axis the offset axis), and replaces a slice whose start index failed the test by NaN. For a label word
  of unsigned value 1..200 the shifted word has value 0..199: it is not negative as a signed word, so nothing is
  added; it passes the test, so nothing is replaced; and the gather's clamp into 0..199 leaves it alone, so the slice
  read at (n, 0, e) is the prediction at (n, label(n) − 1, e), the class the specification calls cls. The two reshapes
  put element (n, 0, e) at flat position k = 2n + e; there the program forms the smooth-L1 term of the difference
  with the target at (k / 2, k % 2), which is the specification's term. The flat sum of the 524288 terms is the
  specification's total (its re-arrangement sum_flat), and the remaining scalar steps, (0 + S) / 524288 · 2, are the
  specification's scale.
-/
import proofs.«415864_j14181982011577_3_alg».proof.Proof.RefReadP
import proofs.«415864_j14181982011577_3_alg».proof.Proof.Spec
import Idealize.ShloMosaic.Lib.ValueIdx
import Idealize.ShloMosaic.Lib.StableHlo.Predicate
import Idealize.ShloMosaic.PureOps.Reduce
import Idealize.ShloMosaic.PureOps.Dims
import Idealize.ShloMosaic.PureOps.ShapeOps
import Mathlib.Data.Finset.Fold
import Mathlib.Algebra.BigOperators.Group.Finset.Defs

noncomputable section

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx
open scoped BigOperators

/-! ## Words: a label of value 1..200, shifted down by one

The shifted word has value label − 1, in 0..199; as a signed word it is that same number, so it is not below 0, is at
least 0 and at most 199, and clamping it into 0..199 gives label − 1, the specification's class. -/

theorem sub_toNat {l : BitVec 32} (h1 : 1 ≤ l.toNat) (h2 : l.toNat ≤ 200) : (IntOp.subi l 1#32).toNat = l.toNat - 1 := by
  show (l - 1#32).toNat = l.toNat - 1
  rw [BitVec.toNat_sub]
  show (2 ^ 32 - 1 + l.toNat) % 2 ^ 32 = l.toNat - 1
  omega

theorem slt_zero {l : BitVec 32} (h1 : 1 ≤ l.toNat) (h2 : l.toNat ≤ 200) : IntOp.cmpi .slt (IntOp.subi l 1#32) 0#32 = 0#1 := by
  refine eq_zero_of_ne_one fun e => ?_
  have hw := sub_toNat h1 h2
  have := (Predicate.slt_iff_toNat (a := IntOp.subi l 1#32) (b := 0#32) (by omega) (by decide)).1 e
  simp at this

theorem sge_zero {l : BitVec 32} (h1 : 1 ≤ l.toNat) (h2 : l.toNat ≤ 200) : IntOp.cmpi .sge (IntOp.subi l 1#32) 0#32 = 1#1 := by
  have hw := sub_toNat h1 h2
  exact (Predicate.sge_iff_toNat (a := IntOp.subi l 1#32) (b := 0#32) (by omega) (by decide)).2 (by simp)

theorem sle_top {l : BitVec 32} (h1 : 1 ≤ l.toNat) (h2 : l.toNat ≤ 200) : IntOp.cmpi .sle (IntOp.subi l 1#32) 199#32 = 1#1 := by
  have hw := sub_toNat h1 h2
  exact (Predicate.sle_iff_toNat (a := IntOp.subi l 1#32) (b := 199#32) (by omega) (by decide)).2 (by rw [hw]; show l.toNat - 1 ≤ 199; omega)

theorem clamp_cls {l : BitVec 32} (h1 : 1 ≤ l.toNat) (h2 : l.toNat ≤ 200) :
    min (IntOp.subi l 1#32).toInt.toNat (200 - 1) = (Cert.ClassLoss.cls l).val := by
  have hw := sub_toNat h1 h2
  rw [Predicate.toInt_eq_toNat_of_lt (by omega), Int.toNat_natCast]
  rfl

/-! ## The start index, its range test, and the row it selects -/

section Stages
open Cert.ClassLoss (Pred Lab Tgt LabelsOk cls)

/-- The broadcast of the shifted labels to [262144, 1, 1] reads, at an index of row n, the shifted label of row n. -/
theorem v2_at (x1 : Lab) (i : S262144x1x1.Idx) (n : Fin 262144) (hn : (i 0).val = n.val) :
    val_main_v2 (F := Ideal) x1 i = IntOp.subi (x1 (ix1 n)) 1#32 := by
  rw [val_main_v2_apply, val_main_v1_apply, val_main_v0_apply, val_main_c_apply]
  have e : idx_main_v2 i = ix1 n := by
    funext a; match a with | ⟨0, _⟩ => exact Fin.ext hn
  rw [e]

/-- A label in 1..200 shifted down is not negative, so the wrap-around branch is not taken: the start index is the
    shifted label itself. -/
theorem v4_at (x1 : Lab) (h : LabelsOk x1) (i : S262144x1x1.Idx) (n : Fin 262144) (hn : (i 0).val = n.val) :
    val_main_call0_v4 (F := Ideal) x1 i = IntOp.subi (x1 (ix1 n)) 1#32 := by
  rw [val_main_call0_v4_apply, val_main_call0_v1_apply, v2_at x1 i n hn, val_main_call0_v0_apply, val_main_call0_c_apply,
    slt_zero (h n).1 (h n).2, select_zero]

/-- It lies in 0..199, so the range test holds at every index. -/
theorem v10_at (x1 : Lab) (h : LabelsOk x1) (i : S262144x1x1.Idx) : val_main_call0_v10 (F := Ideal) x1 i = 1#1 := by
  have hn : (i 0).val = (⟨(i 0).val, (i 0).isLt⟩ : Fin 262144).val := rfl
  rw [val_main_call0_v10_apply, val_main_call0_v6_apply, val_main_call0_v9_apply, v4_at x1 h i _ hn,
    val_main_call0_v5_apply, val_main_call0_c_2_apply, val_main_call0_v8_apply, val_main_call0_v7_apply, val_main_call0_c_1_apply,
    sge_zero (h _).1 (h _).2, sle_top (h _).1 (h _).2]
  rfl

/-- A fold by "and" from 1 over 1s is 1. -/
theorem fold_andi_one {ι : Type} (S : Finset ι) : S.fold IntOp.andi 1#1 (fun _ => (1#1 : BitVec 1)) = 1#1 := by
  induction S using Finset.cons_induction with
  | empty => rfl
  | cons a S ha ih => rw [Finset.fold_cons, ih]; rfl

/-- So the reduction of the range test over the index vector's axis is 1 at every row. -/
theorem v11_at (x1 : Lab) (h : LabelsOk x1) (j : S262144x1.Idx) : val_main_call0_v11 (F := Ideal) x1 j = 1#1 := by
  unfold val_main_call0_v11
  rw [Host.reduce_eq_fold, show val_main_call0_v10 (F := Ideal) x1 = fun _ => (1#1 : BitVec 1) from funext (v10_at x1 h)]
  exact fold_andi_one _

end Stages

/-! ## The gather

Its dimension numbers: operand axis 0 batched with start-index axis 0, operand axis 1 start-indexed (index vector on
axis 2, of length 1) and collapsed, operand axis 2 the result's offset axis 2; slice sizes [1, 1, 2]. The operand index
of result index j is, axis by axis, start + batch coordinate + offset coordinate. -/

section Gather
open Cert.ClassLoss (Pred Lab Tgt LabelsOk cls)

local notation "gd" => gather_S262144x200x2_S262144x1x1_S262144x1x2_2_1_0_0_1_2_112

/-- A result index's row is below the row count, 262144. -/
theorem row_lt (j : S262144x1x2.Idx) : (j 0).val < 262144 := (j 0).isLt

/-- Operand axis 0 is the batching axis: the operand row is the result's row. -/
theorem op0 (idx : IVec S262144x1x1 32) (j : S262144x1x2.Idx) :
    GatherDims.start gd j idx (0 : Fin 3) + GatherDims.batchCoord gd j (0 : Fin 3) + GatherDims.offCoord gd j (0 : Fin 3) = (j 0).val := by
  have hb : (0 : Fin 3) ∈ (gd).operandBatchingDims := List.mem_singleton.mpr rfl
  rw [GatherDims.start_batching _ _ _ _ hb,
    GatherDims.offCoord_eq_zero _ _ _ (fun hk => ((GatherDims.mem_sKept _ _).mp hk).2 hb)]
  unfold GatherDims.batchCoord
  rw [dif_pos hb]
  simp only [Nat.zero_add, Nat.add_zero]
  rfl

/-- Operand axis 2 is the offset axis: the operand's last coordinate is the result's. -/
theorem op2 (idx : IVec S262144x1x1 32) (j : S262144x1x2.Idx) :
    GatherDims.start gd j idx (2 : Fin 3) + GatherDims.batchCoord gd j (2 : Fin 3) + GatherDims.offCoord gd j (2 : Fin 3) = (j 2).val := by
  have hb : (2 : Fin 3) ∉ (gd).operandBatchingDims := by
    intro hm; exact absurd (List.mem_singleton.mp hm) (by decide)
  have hc : (2 : Fin 3) ∉ (gd).collapsedSliceDims := by
    intro hm; exact absurd (List.mem_singleton.mp hm) (by decide)
  have hm : (2 : Fin 3) ∉ (gd).startIndexMap := by
    intro hm; exact absurd (List.mem_singleton.mp hm) (by decide)
  rw [GatherDims.batchCoord_eq_zero _ _ _ hb]
  unfold GatherDims.start
  rw [dif_neg hm]
  unfold GatherDims.offCoord
  rw [dif_pos ((GatherDims.mem_sKept _ _).mpr ⟨hc, hb⟩)]
  simp only [Nat.zero_add, Nat.add_zero]
  rfl

/-- Operand axis 1 is the collapsed, start-indexed axis: the class is the row's start index, read signed and clamped
    into 0..199. -/
theorem op1 (idx : IVec S262144x1x1 32) (j : S262144x1x2.Idx) :
    GatherDims.start gd j idx (1 : Fin 3) + GatherDims.batchCoord gd j (1 : Fin 3) + GatherDims.offCoord gd j (1 : Fin 3)
      = min (idx (ix3 (⟨(j 0).val, row_lt j⟩ : Fin 262144) (0 : Fin 1) (0 : Fin 1))).toInt.toNat (200 - 1) := by
  have hb : (1 : Fin 3) ∉ (gd).operandBatchingDims := by
    intro hm; exact absurd (List.mem_singleton.mp hm) (by decide)
  have hc : (1 : Fin 3) ∈ (gd).collapsedSliceDims := List.mem_singleton.mpr rfl
  have hm : (1 : Fin 3) ∈ (gd).startIndexMap := List.mem_singleton.mpr rfl
  rw [GatherDims.batchCoord_eq_zero _ _ _ hb,
    GatherDims.offCoord_eq_zero _ _ _ (fun hk => ((GatherDims.mem_sKept _ _).mp hk).1 hc)]
  unfold GatherDims.start
  rw [dif_pos hm]
  simp only [Nat.add_zero]
  have hsi : GatherDims.siIdx gd j ⟨List.idxOf (1 : Fin 3) (gd).startIndexMap, List.idxOf_lt_length_iff.2 hm⟩
      = ix3 (⟨(j 0).val, row_lt j⟩ : Fin 262144) (0 : Fin 1) (0 : Fin 1) := by
    funext b; refine Fin.ext ?_
    match b with
    | ⟨0, _⟩ => rfl
    | ⟨1, _⟩ => exact Nat.lt_one_iff.mp (Fin.isLt (n := 1) _)
    | ⟨2, _⟩ => exact Nat.lt_one_iff.mp (Fin.isLt (n := 1) _)
  rw [hsi]
  rfl

/-- THE GATHER READ AT (n, 0, e): row n of the predictions at the class the row's label names, output e. -/
theorem v12_at (x0 : Pred) (x1 : Lab) (h : LabelsOk x1) (j : S262144x1x2.Idx) (n : Fin 262144) (e : Fin 2)
    (hn : (j 0).val = n.val) (he : (j 2).val = e.val) :
    val_main_call0_v12 (F := Ideal) x0 x1 j = x0 (ix3 n (cls (x1 (ix1 n))) e) := by
  unfold val_main_call0_v12 Host.gather
  congr 1
  funext a
  refine Fin.ext ?_
  show GatherDims.start gd j (val_main_call0_v4 (F := Ideal) x1) a + GatherDims.batchCoord gd j a + GatherDims.offCoord gd j a = _
  match a with
  | ⟨0, _⟩ => exact (op0 _ j).trans hn
  | ⟨1, _⟩ =>
    refine (op1 _ j).trans ?_
    rw [v4_at x1 h _ n hn]
    exact clamp_cls (h n).1 (h n).2
  | ⟨2, _⟩ => exact (op2 _ j).trans he

/-- The range test holds, so the selected value is the gathered one, not the NaN filler. -/
theorem v3_at (x0 : Pred) (x1 : Lab) (h : LabelsOk x1) (j : S262144x1x2.Idx) (n : Fin 262144) (e : Fin 2)
    (hn : (j 0).val = n.val) (he : (j 2).val = e.val) :
    val_main_v3 (F := Ideal) x0 x1 j = x0 (ix3 n (cls (x1 (ix1 n))) e) := by
  rw [val_main_v3_apply, val_main_call0_v13_apply, v11_at x1 h, select_one]
  exact v12_at x0 x1 h j n e hn he

end Gather

/-! ## The flat terms, their sum, and the result -/

section Flat
open Cert.ClassLoss (Pred Lab Tgt LabelsOk cls)

/-- Row k / 2 and output k % 2 of flat position k. -/
abbrev rowOf (k : Fin 524288) : Fin 262144 := ⟨k.val / 2, by omega⟩
abbrev outOf (k : Fin 524288) : Fin 2 := ⟨k.val % 2, by omega⟩

/-- The flattened selection at k is the prediction of row k / 2, the row's class, output k % 2. -/
theorem v5_at (x0 : Pred) (x1 : Lab) (h : LabelsOk x1) (k : Fin 524288) :
    val_main_v5 (F := Ideal) x0 x1 (ix1 k) = x0 (ix3 (rowOf k) (cls (x1 (ix1 (rowOf k)))) (outOf k)) := by
  rw [val_main_v5_apply, val_main_v4_apply]
  exact v3_at x0 x1 h _ (rowOf k) (outOf k)
    (by show (k.val / 2 * 2 + k.val % 2) / 2 = k.val / 2; omega)
    (by show (k.val / 2 * 2 + k.val % 2) % 2 = k.val % 2; omega)

/-- The flattened targets at k are the target of row k / 2, output k % 2. -/
theorem v6_at (x2 : Tgt) (k : Fin 524288) :
    val_main_v6 (F := Ideal) x2 (ix1 k) = x2 (ix2 (rowOf k) (outOf k)) := by
  rw [val_main_v6_apply]
  congr 1
  funext a
  match a with
  | ⟨0, _⟩ => rfl
  | ⟨1, _⟩ => rfl

/-- Flat position k holds the smooth-L1 term of row k / 2, output k % 2. -/
theorem v16_at (x0 : Pred) (x1 : Lab) (x2 : Tgt) (h : LabelsOk x1) (k : Fin 524288) :
    val_main_v16 (F := Ideal) x0 x1 x2 (ix1 k) = Cert.ClassLoss.term x0 x1 x2 (rowOf k) (outOf k) := by
  simp only [val_main_v16_apply, val_main_v10_apply, val_main_v13_apply, val_main_v15_apply, val_main_v12_apply,
    val_main_v8_apply, val_main_v7_apply, v5_at x0 x1 h k, v6_at x2 k, val_main_v9_apply, val_main_cst_apply,
    val_main_v11_apply, val_main_cst_0_apply, val_main_v14_apply, val_main_cst_1_apply]
  rfl

/-- A rank-1 index set is its coordinate's range. -/
def flatEquiv : S524288.Idx ≃ Fin 524288 where
  toFun j := j 0
  invFun k := ix1 k
  left_inv j := (eq_ix1 j).symm
  right_inv _ := rfl

/-- The sum of the flat terms is the total of the specification. -/
theorem sum_v16 (x0 : Pred) (x1 : Lab) (x2 : Tgt) (h : LabelsOk x1) :
    ∑ j : S524288.Idx, val_main_v16 (F := Ideal) x0 x1 x2 j = Cert.ClassLoss.total x0 x1 x2 := by
  have e : ∑ j : S524288.Idx, val_main_v16 (F := Ideal) x0 x1 x2 j
      = ∑ k : Fin 524288, Cert.ClassLoss.term x0 x1 x2 (rowOf k) (outOf k) :=
    Fintype.sum_equiv flatEquiv _ _ fun j => (congrArg (val_main_v16 (F := Ideal) x0 x1 x2) (eq_ix1 j)).trans (v16_at x0 x1 x2 h (j 0))
  rw [e]
  exact Cert.ClassLoss.sum_flat (fun n e => Cert.ClassLoss.term x0 x1 x2 n e)

end Flat

/-- THE REFERENCE'S RESULT IS THE SPECIFICATION'S LOSS, for labels in 1..200. -/
theorem ref_eq (x0 : Cert.ClassLoss.Pred) (x1 : Cert.ClassLoss.Lab) (x2 : Cert.ClassLoss.Tgt) (h : Cert.ClassLoss.LabelsOk x1) :
    Cert.ReferenceIdeal.ReadP.val_main_v19 (F := Ideal) x0 x1 x2 = Cert.ClassLoss.loss x0 x1 x2 := by
  funext i
  rw [val_main_v19_apply, val_main_v18_apply, val_main_v17_apply, sum_v16 x0 x1 x2 h, val_main_cst_2_apply, val_main_cst_3_apply,
    val_main_cst_4_apply]
  rfl

end Cert.ReferenceIdeal.RefValue

end
-- ==== Proof.PreDecode.lean ====
/-
  The label conjunct of the precondition, read back: a precondition word equal to 1 says, among other
  things, that the "and" over all 262144 rows of (label ≥ 1 signed) ∧ (label ≤ 200 signed) is 1, hence each
  label word, read signed, lies in [1, 200]; a word whose signed value is that small and positive has the
  same unsigned value.
-/
import proofs.«415864_j14181982011577_3_alg».proof.Pre_finite_inputs
import proofs.«415864_j14181982011577_3_alg».proof.Proof.Spec
import Idealize.ShloMosaic.Lib.ReduceAll

open Idealize.ShloMosaic Idealize.ShloMosaic.ValueIdx

namespace Cert.ClassLoss

/-- A rank-0 array has one index. -/
instance : Subsingleton Cert.Pre_finite_inputs.S_.Idx := ⟨fun _ _ => funext fun d => d.elim0⟩

/-- A word between 1 and 200 as a signed number is between 1 and 200 as an unsigned one: were its top bit
    set its signed value would be negative. -/
theorem range_of_signed (x : BitVec 32) (h1 : (1#32 : BitVec 32).toInt ≤ x.toInt)
    (h2 : x.toInt ≤ (200#32 : BitVec 32).toInt) : 1 ≤ x.toNat ∧ x.toNat ≤ 200 := by
  have e1 : (1#32 : BitVec 32).toInt = 1 := by decide
  have e2 : (200#32 : BitVec 32).toInt = 200 := by decide
  rw [e1] at h1
  rw [e2] at h2
  have hx : x.toNat < 2 ^ 32 := x.isLt
  rw [BitVec.toInt_eq_toNat_cond] at h1 h2
  by_cases hc : 2 * x.toNat < 2 ^ 32
  · rw [if_pos hc] at h1 h2
    omega
  · rw [if_neg hc] at h1 h2
    omega

/-- The precondition word is 1 only if every label is a class id in 1..200. -/
theorem labelsOk_of_pre {F : FTy → Type} [FloatOps F] [Cert.Pre_finite_inputs.Facts]
    (a0 : FVec F Cert.Pre_finite_inputs.S262144x200x2 .f32) (a1 : IVec Cert.Pre_finite_inputs.S262144 32)
    (a2 : FVec F Cert.Pre_finite_inputs.S262144x2 .f32)
    (h : Cert.Pre_finite_inputs.fn (F := F) a0 a1 a2 = fun _ => 1#1) : LabelsOk a1 := by
  intro n
  have h0 := congrFun h ix0
  dsimp only [Cert.Pre_finite_inputs.fn] at h0
  -- the last conjunct of the outer "and" is the reduction over the rows
  have h14 := (IntOp.andi_eq_one.1 h0).2
  -- a reduction by "and" that is 1 had a 1 at every row
  have hn := Host.reduce_andi_all _ _ _ _ ix0 h14 (ix1 n)
  obtain ⟨hge, hle⟩ := IntOp.andi_eq_one.1 hn
  -- the two scalar constants, broadcast, read 1 and 200 at every row
  have hge' : IntOp.cmpi .sge (a1 (ix1 n)) 1#32 = 1#1 := hge
  have hle' : IntOp.cmpi .sle (a1 (ix1 n)) 200#32 = 1#1 := hle
  exact range_of_signed _ (IntOp.cmpi_sge.1 hge') (IntOp.cmpi_sle.1 hle')

end Cert.ClassLoss
-- ==== Proof.lean ====
/-
  Class-wise regression loss, 262144 rows, 200 classes, two regression outputs per class.

  Both programs compute, from predictions p[n, c, e], 1-based label words l[n] and targets t[n, e],

      loss = (0 + Σ_n Σ_e H(p[n, l[n] − 1, e] − t[n, e])) / 524288 · 2,

  H the smooth-L1 term (d²/2 where |d| < 1, else |d| − 1/2).  The reference gathers the labelled class of every
  row, flattens, and sums the 524288 terms.  The kernel views the predictions [262144, 400], walks 64 blocks of
  4096 rows in two stretches of 32, and in each block picks, for every row, the two entries of the labelled class
  by masking the row with "column = 2(l − 1) (+ 1)" against a table of column numbers and summing the 400 lanes;
  it adds the block's terms into an accumulator that is reset at the start of a stretch and written out at its
  end, and the host adds the two accumulators, divides and doubles.  A mask with one set lane sums to that lane,
  and addition on the extended reals is commutative and associative, so the two results are one number.

  The statement's precondition carries, beside finiteness of the float inputs, the evident domain of the labels:
  every label in 1..200.  Outside it the two programs differ (the kernel clamps the class index, the reference
  wraps a negative one around and marks one past the end as not-a-number); the proof uses that conjunct and not
  finiteness.

  The three frames: the kernel's two are the generated frame certificates; the reference's is its run with the
  result dropped.  The idealization rewrote nothing, so "preserves" is trivial.
-/
import proofs.«415864_j14181982011577_3_alg».proof.Defs
import proofs.«415864_j14181982011577_3_alg».proof.Proof.Gen.Kernel
import proofs.«415864_j14181982011577_3_alg».proof.Proof.Gen.Kernel.Skeleton
import proofs.«415864_j14181982011577_3_alg».proof.Proof.Gen.Kernel.Launch
import proofs.«415864_j14181982011577_3_alg».proof.Proof.Gen.Kernel.Points
import proofs.«415864_j14181982011577_3_alg».proof.Proof.Gen.Kernel.Frame
import proofs.«415864_j14181982011577_3_alg».proof.Proof.Gen.KernelIdeal
import proofs.«415864_j14181982011577_3_alg».proof.Proof.Gen.KernelIdeal.Skeleton
import proofs.«415864_j14181982011577_3_alg».proof.Proof.Gen.KernelIdeal.Launch
import proofs.«415864_j14181982011577_3_alg».proof.Proof.Gen.KernelIdeal.Points
import proofs.«415864_j14181982011577_3_alg».proof.Proof.Gen.KernelIdeal.Frame
import proofs.«415864_j14181982011577_3_alg».proof.Proof.Gen.ReferenceIdeal
import proofs.«415864_j14181982011577_3_alg».proof.Proof.Gen.Pre_finite_inputs
import proofs.«415864_j14181982011577_3_alg».proof.Proof.KResult
import proofs.«415864_j14181982011577_3_alg».proof.Proof.RefValue
import proofs.«415864_j14181982011577_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the specification's loss of the (agreeing) argument arrays: the kernel's by its accumulated
    block sums, the reference's by its flat sum; the label range comes from the precondition. -/
theorem algebraic : Cert.algebraic_KernelIdeal_ReferenceIdeal := by
  intro m ρ m' ρ' hpre hagree
  have hl : ∀ c : Dev Cert.KernelIdeal.nD, Cert.ClassLoss.LabelsOk
      (m ((c.tc : Thread Cert.KernelIdeal.nD Cert.KernelIdeal.τ).loc Cert.KernelIdeal.main_arg1)) :=
    fun c => Cert.ClassLoss.labelsOk_of_pre _ _ _ (hpre c)
  refine ⟨fun c => Cert.ClassLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ hl, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v19_eq, (hagree c).1, (hagree c).2.1, (hagree c).2.2]
  exact Cert.ReferenceIdeal.RefValue.ref_eq _ _ _ (hl c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
